-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x3 : Shape := ⟨3, ![8, 2048, 3]⟩
abbrev S_ : Shape := ⟨0, ![]⟩

class Facts : Prop where
  bcast_S_S8x2048x3 : S_.BroadcastsInDim S8x2048x3 (![] : Fin 0 → Fin S8x2048x3.rank)
  reducesTo_S8x2048x3_S_d0_1_2 : S8x2048x3.ReducesTo [0, 1, 2] S_
  h_S_ : 0 < S_.numel

variable [Facts]

def fn {F : FTy → Type} [FloatOps F] (main_arg0 : FVec F S8x2048x3 .f32) (main_arg1 : FVec F S8x2048x3 .f32) : IVec S_ 1 :=
  let main_v0 : FVec F S8x2048x3 .f32 := Host.absf main_arg0
  let main_cst : FVec F S_ .f32 := constant S_ .f32 0x7F800000#32
  let main_v1 : FVec F S8x2048x3 .f32 := broadcastInDim S8x2048x3 ![] bcast_S_S8x2048x3 main_cst
  let main_v2 : IVec S8x2048x3 1 := cmpf .olt main_v0 main_v1
  let main_c : IVec S_ 1 := constantI S_ 1 1#1
  let main_v3 : IVec S_ 1 := (fun x v => Host.reduce IntOp.andi x v reducesTo_S8x2048x3_S_d0_1_2 h_S_) main_v2 main_c
  let main_v4 : FVec F S8x2048x3 .f32 := Host.absf main_arg1
  let main_cst_0 : FVec F S_ .f32 := constant S_ .f32 0x7F800000#32
  let main_v5 : FVec F S8x2048x3 .f32 := broadcastInDim S8x2048x3 ![] bcast_S_S8x2048x3 main_cst_0
  let main_v6 : IVec S8x2048x3 1 := cmpf .olt main_v4 main_v5
  let main_c_1 : IVec S_ 1 := constantI S_ 1 1#1
  let main_v7 : IVec S_ 1 := (fun x v => Host.reduce IntOp.andi x v reducesTo_S8x2048x3_S_d0_1_2 h_S_) main_v6 main_c_1
  let main_v8 : IVec S_ 1 := andi main_v3 main_v7
  main_v8
-- ==== Kernel.lean ====
abbrev S8x2048x3 : Shape := ⟨3, ![8, 2048, 3]⟩
abbrev S3x8x2048 : Shape := ⟨3, ![3, 8, 2048]⟩
abbrev S1x1 : Shape := ⟨2, ![1, 1]⟩
abbrev S3x1x2048 : Shape := ⟨3, ![3, 1, 2048]⟩
abbrev S3x2048 : Shape := ⟨2, ![3, 2048]⟩
abbrev S2048 : Shape := ⟨1, ![2048]⟩
abbrev S1x2048 : Shape := ⟨2, ![1, 2048]⟩
abbrev S8x2048 : Shape := ⟨2, ![8, 2048]⟩
abbrev S2048x2048 : Shape := ⟨2, ![2048, 2048]⟩
abbrev S2048x1 : Shape := ⟨2, ![2048, 1]⟩
abbrev S1x2048x1 : Shape := ⟨3, ![1, 2048, 1]⟩
abbrev S1 : Shape := ⟨1, ![1]⟩
abbrev S1x1x1 : Shape := ⟨3, ![1, 1, 1]⟩
abbrev S1x1x2048 : Shape := ⟨3, ![1, 1, 2048]⟩
abbrev S_ : Shape := ⟨0, ![]⟩

abbrev nBuf : Space → Nat
  | .hbm => 6
  | .vmem => 3
  | .smem => 0
  | _ => 0

abbrev bufTy : (tb : Table) → Fin (tcTables nBuf tb) → BufTy
  | .hbm, ⟨0, _⟩ => ⟨S8x2048x3, .f32⟩
  | .hbm, ⟨1, _⟩ => ⟨S8x2048x3, .f32⟩
  | .hbm, ⟨2, _⟩ => ⟨S3x8x2048, .f32⟩
  | .hbm, ⟨3, _⟩ => ⟨S3x8x2048, .f32⟩
  | .hbm, ⟨4, _⟩ => ⟨S1x1, .f32⟩
  | .hbm, ⟨5, _⟩ => ⟨S_, .f32⟩
  | .local _ .vmem, ⟨0, _⟩ => ⟨S3x8x2048, .f32⟩
  | .local _ .vmem, ⟨1, _⟩ => ⟨S3x8x2048, .f32⟩
  | .local _ .vmem, ⟨2, _⟩ => ⟨S1x1, .f32⟩
  | _, _ => ⟨S8x2048x3, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![4], ![false]⟩

def k0_off1 (i : grid0.Coords) (c0_i32 : BitVec 32) : Fin 3 → Nat :=
  let c0 : Index := 0#32
  let c2_i32 : BitVec 32 := 2#32
  let arg0 : BitVec 32 := BitVec.ofNat 32 (i 0).val
  let v0 : BitVec 32 := Scalar.muli c2_i32 arg0
  let v1 : BitVec 32 := Scalar.addi v0 c0_i32
  let v2 : Index := Scalar.indexCast v1
  let c0_0 : Index := 0#32
  ![0, v2.toNat, 0]
def k0_cond1 (i : grid0.Coords) : BitVec 1 :=
  let arg0 : BitVec 32 := BitVec.ofNat 32 (i 0).val
  let c0_i32_44 : BitVec 32 := 0#32
  let v99 : BitVec 1 := Scalar.cmpi .eq arg0 c0_i32_44
  let v100 : BitVec 32 := Scalar.extui v99
  let c0_i32_45 : BitVec 32 := 0#32
  let v101 : BitVec 1 := Scalar.cmpi .ne v100 c0_i32_45
  v101

def k0_cond2 (i : grid0.Coords) : BitVec 1 :=
  let arg0 : BitVec 32 := BitVec.ofNat 32 (i 0).val
  let c0_i32_46 : BitVec 32 := 0#32
  let v102 : BitVec 1 := Scalar.cmpi .ne arg0 c0_i32_46
  let v103 : BitVec 32 := Scalar.extui v102
  let c0_i32_47 : BitVec 32 := 0#32
  let v104 : BitVec 1 := Scalar.cmpi .ne v103 c0_i32_47
  v104

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S3x8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3x8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  transposes_S8x2048x3_S3x8x2048_2_0_1 : S8x2048x3.Transposes [2, 0, 1] S3x8x2048
  h_S3x1x2048 : 0 < S3x1x2048.numel
  shapeCasts_S3x1x2048_S3x2048 : S3x1x2048.ShapeCasts S3x2048
  reduces_S3x2048_S2048 : S3x2048.Reduces [0] S2048
  shapeCasts_S2048_S1x2048 : S2048.ShapeCasts S1x2048
  concatenates_S3x2048_S1x2048_S1x2048_S3x2048_S8x2048_d0 : Shape.Concatenates [S3x2048, S1x2048, S1x2048, S3x2048] S8x2048 0
  reduces_S2048x2048_S2048 : S2048x2048.Reduces [1] S2048
  shapeCasts_S2048_S2048x1 : S2048.ShapeCasts S2048x1
  reduces_S2048x2048_S2048_2 : S2048x2048.Reduces [0] S2048
  shapeCasts_S2048x1_S1x2048x1 : S2048x1.ShapeCasts S1x2048x1
  reduces_S1x2048x1_S1 : S1x2048x1.Reduces [1, 2] S1
  shapeCasts_S1_S1x1x1 : S1.ShapeCasts S1x1x1
  inpos_S1x1x1_p0_0_0 : ∀ a, (![0, 0, 0] : Fin 3 → Nat) a < S1x1x1.size a
  shapeCasts_S1x2048_S1x1x2048 : S1x2048.ShapeCasts S1x1x2048
  reduces_S1x1x2048_S1 : S1x1x2048.Reduces [1, 2] S1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S_ : S1x1.ShapeCasts S_
  dot_S8x2048_S8x2048_S2048x2048_0_0_1_1_n_n_wf : DotDims.WF S8x2048 S8x2048 S2048x2048 [0] [0] [1] [1] [] []
  hrank0 : 0 < grid0.rank
  k0_off1_inb : ∀ i : grid0.Coords, ∀ (r : Fin 2), ∀ a, (k0_off1 i (BitVec.ofNat 32 r.val)) a + S3x1x2048.size a ≤ S3x8x2048.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S3x8x2048.size a ≤ S3x8x2048.size a
  hwx0_0 : ∀ i : grid0.Coords, EltTy.bits .f32 = 32 ∨ (Rect.block (s := S3x8x2048) S3x8x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x8x2048.size a ≤ S3x8x2048.size a
  hwx0_1 : ∀ i : grid0.Coords, EltTy.bits .f32 = 32 ∨ (Rect.block (s := S3x8x2048) S3x8x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def dot_S8x2048_S8x2048_S2048x2048_0_0_1_1_n_n : DotDims S8x2048 S8x2048 S2048x2048 where
  lhsContracting := [0]
  rhsContracting := [0]
  lhsNonContracting := [1]
  rhsNonContracting := [1]
  lhsBatch := []
  rhsBatch := []
  wf := dot_S8x2048_S8x2048_S2048x2048_0_0_1_1_n_n_wf

abbrev win0_0 : Pipeline.Window sig grid0 :=
  Pipeline.Window.ofSpec (Memref.whole main_v0) S3x8x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3x8x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) | ⟨_ + 3, h⟩ => absurd h (Nat.not_lt.2 (Nat.le_add_left _ _))

class Facts : Prop extends Facts₀ where

variable [Facts]
-- ==== ReferenceIdeal.lean ====
abbrev S8x2048x3 : Shape := ⟨3, ![8, 2048, 3]⟩
abbrev S_ : Shape := ⟨0, ![]⟩
abbrev S8x2048 : Shape := ⟨2, ![8, 2048]⟩
abbrev S8x2048x1 : Shape := ⟨3, ![8, 2048, 1]⟩
abbrev S8x2048x2048 : Shape := ⟨3, ![8, 2048, 2048]⟩
abbrev S8x1x2048 : Shape := ⟨3, ![8, 1, 2048]⟩

abbrev nBuf : Space → Nat
  | .hbm => 35
  | .vmem => 0
  | .smem => 0
  | _ => 0

abbrev bufTy : (tb : Table) → Fin (tcTables nBuf tb) → BufTy
  | .hbm, ⟨0, _⟩ => ⟨S8x2048x3, .f32⟩
  | .hbm, ⟨1, _⟩ => ⟨S8x2048x3, .f32⟩
  | .hbm, ⟨2, _⟩ => ⟨S8x2048x3, .f32⟩
  | .hbm, ⟨3, _⟩ => ⟨S_, .f32⟩
  | .hbm, ⟨4, _⟩ => ⟨S8x2048, .f32⟩
  | .hbm, ⟨5, _⟩ => ⟨S8x2048x1, .f32⟩
  | .hbm, ⟨6, _⟩ => ⟨S8x2048x3, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S8x2048x2048, .f32⟩
  | .hbm, ⟨11, _⟩ => ⟨S8x1x2048, .f32⟩
  | .hbm, ⟨12, _⟩ => ⟨S8x2048x2048, .f32⟩
  | .hbm, ⟨13, _⟩ => ⟨S8x2048x2048, .f32⟩
  | .hbm, ⟨14, _⟩ => ⟨S8x2048x2048, .f32⟩
  | .hbm, ⟨15, _⟩ => ⟨S_, .f32⟩
  | .hbm, ⟨16, _⟩ => ⟨S8x2048x2048, .f32⟩
  | .hbm, ⟨17, _⟩ => ⟨S8x2048x2048, .f32⟩
  | .hbm, ⟨18, _⟩ => ⟨S8x2048x2048, .f32⟩
  | .hbm, ⟨19, _⟩ => ⟨S_, .f32⟩
  | .hbm, ⟨20, _⟩ => ⟨S8x2048x2048, .f32⟩
  | .hbm, ⟨21, _⟩ => ⟨S8x2048x2048, .f32⟩
  | .hbm, ⟨22, _⟩ => ⟨S_, .f32⟩
  | .hbm, ⟨23, _⟩ => ⟨S8x2048, .f32⟩
  | .hbm, ⟨24, _⟩ => ⟨S_, .f32⟩
  | .hbm, ⟨25, _⟩ => ⟨S8x2048, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | _, _ => ⟨S8x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_cst_8 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]

class Facts₀ : Prop where
  reducesTo_S8x2048x3_S8x2048_d2 : S8x2048x3.ReducesTo [2] S8x2048
  h_S_ : 0 < S_.numel
  bcast_S8x2048_S8x2048x1_0_1 : S8x2048.BroadcastsInDim S8x2048x1 (![0, 1] : Fin 2 → Fin S8x2048x1.rank)
  transposes_S8x2048x1_S8x1x2048_0_2_1 : S8x2048x1.Transposes [0, 2, 1] S8x1x2048
  bcast_S8x2048x1_S8x2048x2048_0_1_2 : S8x2048x1.BroadcastsInDim S8x2048x2048 (![0, 1, 2] : Fin 3 → Fin S8x2048x2048.rank)
  bcast_S8x1x2048_S8x2048x2048_0_1_2 : S8x1x2048.BroadcastsInDim S8x2048x2048 (![0, 1, 2] : Fin 3 → Fin S8x2048x2048.rank)
  bcast_S_S8x2048x2048 : S_.BroadcastsInDim S8x2048x2048 (![] : Fin 0 → Fin S8x2048x2048.rank)
  reducesTo_S8x2048x2048_S8x2048_d2 : S8x2048x2048.ReducesTo [2] S8x2048
  reducesTo_S8x2048x2048_S8x2048_d1 : S8x2048x2048.ReducesTo [1] S8x2048
  reducesTo_S8x2048_S_d0_1 : S8x2048.ReducesTo [0, 1] S_
  dot_S8x2048x3_S8x2048x3_S8x2048x2048_2_2_1_1_0_0_wf : DotDims.WF S8x2048x3 S8x2048x3 S8x2048x2048 [2] [2] [1] [1] [0] [0]

variable [Facts₀]

def dot_S8x2048x3_S8x2048x3_S8x2048x2048_2_2_1_1_0_0 : DotDims S8x2048x3 S8x2048x3 S8x2048x2048 where
  lhsContracting := [2]
  rhsContracting := [2]
  lhsNonContracting := [1]
  rhsNonContracting := [1]
  lhsBatch := [0]
  rhsBatch := [0]
  wf := dot_S8x2048x3_S8x2048x3_S8x2048x2048_2_2_1_1_0_0_wf

class Facts : Prop extends Facts₀ where

variable [Facts]
-- ==== Proof.KernelBody.lean ====
/-
  The frame of the kernel program, at any reading of its floats.

  The kernel runs its body at four grid points. At point g it reads, from the two clouds' coordinate planes held whole
  in its two input buffers, the planes of batches 2g and 2g + 1, and computes from them one 1×1 value, the point's
  share of the loss (`stepVal`). Its one output buffer is an accumulator: the first point stores its share there, each
  later point loads the buffer, adds its share and stores the sum (`accVal`). The buffer is written back to the
  result array after the last point only, so between points it keeps what the point before left: after point n it
  holds `accAt n`, the shares of points 0 … n added in that order. The inputs are only read.
-/
import proofs.«101875_g19164144075462_retrytranche2_391_21_alg».proof.Proof.Gen.Kernel.Frame
import proofs.«101875_g19164144075462_retrytranche2_391_21_alg».proof.Proof.Gen.Kernel.Skeleton
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Which points store and which accumulate -/

/-- The first branch (store the share) is taken at point 0 only, -/
theorem first_iff : ∀ t : Fin cfg0.N, k0_cond1 (grid0.coords t) = 1#1 ↔ t.val = 0 :=
  (by decide +kernel : ∀ t : Fin grid0.N, k0_cond1 (grid0.coords t) = 1#1 ↔ t.val = 0)
/-- the second (add the share to the buffer) at every later point. -/
theorem later_iff : ∀ t : Fin cfg0.N, k0_cond2 (grid0.coords t) = 1#1 ↔ 1 ≤ t.val :=
  (by decide +kernel : ∀ t : Fin grid0.N, k0_cond2 (grid0.coords t) = 1#1 ↔ 1 ≤ t.val)
/-- So the body stores into the output buffer at every point: one of the two branches is always taken. -/
theorem out_live : ∀ i : grid0.Coords, cfg0.idle 2 i = false := by decide +kernel

/-- The whole-block rectangle of the 1×1 buffer starts at the origin. -/
theorem origin2 : (![0, 0] : Fin 2 → ℕ) = fun _ => 0 := by funext a; fin_cases a <;> rfl

/-! ## What one point computes -/

/-- The three coordinate planes of batch `2g + r` (r = 0, 1) of a cloud held as planes: the 3×1×2048 box the body loads. -/
def rowsOf (i : grid0.Coords) (r : Fin 2) (x : Vec F S3x8x2048 .f32) : Vec F S3x1x2048 .f32 :=
  View.ld x (Rect.unit (s := S3x8x2048) (k0_off1 i (BitVec.ofNat 32 r.val)) S3x1x2048.size (k0_off1_inb i r))

/-- A point's share of the loss: the four quotients of its two batches, added from zero. -/
def stepVal (i : grid0.Coords) (x0 x1 : Vec F S3x8x2048 .f32) : Vec F S1x1 .f32 :=
  k0_pay1 (k0_pay6 (k0_pay4 (rowsOf i 1 x0)) (k0_pay5 (rowsOf i 1 x1)))
    (k0_pay7 (k0_pay3 (rowsOf i 0 x0) (rowsOf i 0 x1)))
    (k0_pay8 (k0_pay4 (rowsOf i 1 x0)) (k0_pay5 (rowsOf i 1 x1)))

/-- What a later point leaves in the accumulator that held `xo`: `xo` plus its share. -/
def accVal (i : grid0.Coords) (x0 x1 : Vec F S3x8x2048 .f32) (xo : Vec F S1x1 .f32) : Vec F S1x1 .f32 :=
  k0_pay2 (k0_pay6 (k0_pay4 (rowsOf i 1 x0)) (k0_pay5 (rowsOf i 1 x1)))
    (k0_pay7 (k0_pay3 (rowsOf i 0 x0) (rowsOf i 0 x1)))
    (k0_pay8 (k0_pay4 (rowsOf i 1 x0)) (k0_pay5 (rowsOf i 1 x1))) xo

/-! ## The body's two runs -/

set_option maxHeartbeats 1000000 in
/-- At the first point: the inputs read and left as they were, the output buffer, whatever it held, left at the share. -/
theorem run_first (c : Dev nD) (i : grid0.Coords) (arg1 : Memref sig .tc .vmem S3x8x2048 .f32) (harg1 : arg1.IsWhole) (arg2 : Memref sig .tc .vmem S3x8x2048 .f32) (harg2 : arg2.IsWhole) (arg3 : Memref sig .tc .vmem S1x1 .f32) (harg3 : arg3.IsWhole) (hc0 : k0_cond1 i = 1#1) (hc1 : ¬ k0_cond2 i = 1#1)
    (x0 : Vec F S3x8x2048 .f32) (x1 : Vec F S3x8x2048 .f32) (E : Set ℕ) (K : PUnit → sProp 𝕄) :
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ owns (c : Thread nD τ) arg3 fullShare (stepVal i x0 x1)) -∗ K ⟨⟩))
          ⊢ wp frame (wpE (defs₀ (F := F)) Variants.none c none) E (cc0__chamfer_body i arg1 harg1 arg2 harg2 arg3 harg3) K := by
    simp only [cc0__chamfer_body_eq_skeleton]; unfold cc0__chamfer_body_skel
    simp only [k0_part1_eq_skeleton, k0_part2_eq_skeleton]
    unfold owns
    iintro ⟨⟨%f0, %hf0, H0⟩, ⟨%f1, %hf1, H1⟩, ⟨%d2, %f2, %hf2, H2⟩, Hk⟩
    obtain rfl := harg1.eq_unread hf0; obtain rfl := harg2.eq_unread hf1
    sl_exec (disch := first | exact hc0 | exact hc1)
    sl_unfold_words
    sl_step
    iapply Hk
    isplitl [H0]
    · iexists _; isplitr; · ipureintro; exact harg1.read_unread _
      iexact H0
    isplitl [H1]
    · iexists _; isplitr; · ipureintro; exact harg2.read_unread _
      iexact H1
    iexists _; isplitr; swap; · iexact H2
    ipureintro
    rw [View.read_writes_eq_canon _ _ _ (fun y => ⟨_, List.mem_singleton_self _, View.mem_set_unit_zero origin2 Gen.inb_S1x1_S1x1_0_0 y⟩),
      View.canon_unit_zero origin2]
    simp only [View.readAt_eq_ld, harg1.read_unread, harg2.read_unread]
    rfl

set_option maxHeartbeats 1000000 in
/-- At a later point: the inputs read and left as they were, the output buffer that held `xo` left at `xo` plus the share. -/
theorem run_later (c : Dev nD) (i : grid0.Coords) (arg1 : Memref sig .tc .vmem S3x8x2048 .f32) (harg1 : arg1.IsWhole) (arg2 : Memref sig .tc .vmem S3x8x2048 .f32) (harg2 : arg2.IsWhole) (arg3 : Memref sig .tc .vmem S1x1 .f32) (harg3 : arg3.IsWhole) (hc0 : ¬ k0_cond1 i = 1#1) (hc1 : k0_cond2 i = 1#1)
    (x0 : Vec F S3x8x2048 .f32) (x1 : Vec F S3x8x2048 .f32) (xo : Vec F S1x1 .f32) (E : Set ℕ) (K : PUnit → sProp 𝕄) :
        iprop(owns (c : Thread nD τ) arg1 fullShare x0 ∗ owns (c : Thread nD τ) arg2 fullShare x1 ∗ owns (c : Thread nD τ) arg3 fullShare xo
            ∗ (iprop(owns (c : Thread nD τ) arg1 fullShare x0 ∗ owns (c : Thread nD τ) arg2 fullShare x1 ∗ owns (c : Thread nD τ) arg3 fullShare (accVal i x0 x1 xo)) -∗ K ⟨⟩))
          ⊢ wp frame (wpE (defs₀ (F := F)) Variants.none c none) E (cc0__chamfer_body i arg1 harg1 arg2 harg2 arg3 harg3) K := by
    simp only [cc0__chamfer_body_eq_skeleton]; unfold cc0__chamfer_body_skel
    simp only [k0_part1_eq_skeleton, k0_part2_eq_skeleton]
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0 | exact hc1)
    sl_unfold_words
    sl_step
    iapply Hk
    isplitl [H0]
    · iexists _; isplitr; · ipureintro; exact harg1.read_unread _
      iexact H0
    isplitl [H1]
    · iexists _; isplitr; · ipureintro; exact harg2.read_unread _
      iexact H1
    iexists _; isplitr; swap; · iexact H2
    ipureintro
    rw [View.read_writes_eq_canon _ _ _ (fun y => ⟨_, List.mem_singleton_self _, View.mem_set_unit_zero origin2 Gen.inb_S1x1_S1x1_0_0 y⟩),
      View.canon_unit_zero origin2]
    simp only [View.readAt_eq_ld, harg1.read_unread, harg2.read_unread, harg3.read_unread, View.ld_unit_zero (S := S1x1) origin2]
    rfl

/-! ## The accumulator, point by point, and the proof data -/

variable (m : (ℓ : Loc nD τ sig) → Buf (Elt F) ℓ) (ρ : Dev nD → PrngReg)

/-- Each window's current staging memref at point `t`, as the pipeline passes it to the body, and its wholeness. -/
abbrev ms0 (t : Fin cfg0.N) : Memref sig .tc .vmem S3x8x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S3x8x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1 .f32 := win0_2.stage (cfg0.slots t 2)
abbrev hs2 (t : Fin cfg0.N) : (ms2 t).IsWhole := hstage0_2 ((cfg0.slots t 2).cast nbuf0_2)

/-- What the output buffer holds after the body at point `n`: the shares of points 0 … n, added in that order. -/
def accAt (c : Dev nD) : (n : ℕ) → n < cfg0.N → Vec F S1x1 .f32
  | 0, hn => stepVal (grid0.coords ⟨0, hn⟩) (iblk m c 0 ⟨0, hn⟩) (iblk m c 1 ⟨0, hn⟩)
  | n + 1, hn => accVal (grid0.coords ⟨n + 1, hn⟩) (iblk m c 0 ⟨n + 1, hn⟩) (iblk m c 1 ⟨n + 1, hn⟩) (accAt c n (Nat.lt_of_succ_lt hn))

theorem accAt_first (c : Dev nD) (t : Fin cfg0.N) (h0 : t.val = 0) :
    accAt m c t.val t.isLt = stepVal (grid0.coords t) (iblk m c 0 t) (iblk m c 1 t) := by
  obtain ⟨n, hn⟩ := t
  cases n with
  | zero => rfl
  | succ n => exact absurd h0 (Nat.succ_ne_zero n)

theorem accAt_later (c : Dev nD) (t : Fin cfg0.N) (h1 : 1 ≤ t.val) :
    accAt m c t.val t.isLt = accVal (grid0.coords t) (iblk m c 0 t) (iblk m c 1 t)
      (accAt m c (t.val - 1) (Nat.lt_of_le_of_lt (Nat.sub_le _ _) t.isLt)) := by
  obtain ⟨n, hn⟩ := t
  cases n with
  | zero => exact absurd h1 (Nat.not_succ_le_zero 0)
  | succ n => rfl

/-- The proof data of the pipeline on core `c`: the arrays as the region finds them; after the body at point `t` each
    input buffer at its block and the output buffer at `accAt t`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => accAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = accAt m c t.val t.isLt := by dsimp only [dats]

/-- Each input buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
/-- At a later point the output buffer holds what the point before left: it is not the first point, the buffer was not
    written back between, and the body stores into it at every point. -/
theorem before2_later (c : Dev nD) (t : Fin cfg0.N) (h1 : 1 ≤ t.val) (d) :
    (dats m 0 c).before 2 t d = accAt m c (t.val - 1) (Nat.lt_of_le_of_lt (Nat.sub_le _ _) t.isLt) := by
  have hN : t.val < 4 := lt_of_lt_of_eq t.isLt (show cfg0.N = 4 from N_0)
  rw [Dat.before_out_kept _ 2 rfl t (by omega) (Bool.eq_false_iff.mpr fun h => by have := (flush0_2 _).mp h; dsimp only at this; omega)
    out_live (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 800000 in
/-- The body at any point: the inputs hold their blocks; at the first point the first run applies, at a later one the
    second, the output buffer holding what the point before left; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    show (dats m 0 c).leavesExact 0 t = owns (c : Thread nD τ) (ms0 t) fullShare ((dats m 0 c).after 0 t) from rfl,
    show (dats m 0 c).leavesExact 1 t = owns (c : Thread nD τ) (ms1 t) fullShare ((dats m 0 c).after 1 t) from rfl,
    show (dats m 0 c).leavesExact 2 t = owns (c : Thread nD τ) (ms2 t) fullShare ((dats m 0 c).after 2 t) from by
      unfold Dat.leavesExact; rw [out_live (grid0.coords t)],
    after0, after1, after2]
  have hN : t.val < 4 := lt_of_lt_of_eq t.isLt (show cfg0.N = 4 from N_0)
  by_cases h0 : t.val = 0
  · rw [accAt_first m c t h0]
    iintro ⟨HΦ, Ho, ⟨%d0, H0⟩, ⟨%d1, H1⟩, ⟨%d2, H2⟩⟩
    iapply (run_first c (grid0.coords t) _ _ _ _ _ _ ((first_iff t).mpr h0) (fun h => by have := (later_iff t).mp h; omega)
      (iblk m c 0 t) (iblk m c 1 t) Set.univ _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · have h1 : 1 ≤ t.val := by omega
    rw [accAt_later m c t h1]
    simp only [before2_later m c t h1]
    iintro ⟨HΦ, Ho, ⟨%d0, H0⟩, ⟨%d1, H1⟩, ⟨%d2, H2⟩⟩
    iapply (run_later c (grid0.coords t) _ _ _ _ _ _ (fun h => h0 ((first_iff t).mp h)) ((later_iff t).mpr h1)
      (iblk m c 0 t) (iblk m c 1 t) _ Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; the pipeline's arrays end at what the write-backs leave, the reshape
    after the region is applied to that, and every other buffer keeps its contents. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.KernelIdealBody.lean ====
/-
  The frame of the kernel program, at any reading of its floats.

  The kernel runs its body at four grid points. At point g it reads, from the two clouds' coordinate planes held whole
  in its two input buffers, the planes of batches 2g and 2g + 1, and computes from them one 1×1 value, the point's
  share of the loss (`stepVal`). Its one output buffer is an accumulator: the first point stores its share there, each
  later point loads the buffer, adds its share and stores the sum (`accVal`). The buffer is written back to the
  result array after the last point only, so between points it keeps what the point before left: after point n it
  holds `accAt n`, the shares of points 0 … n added in that order. The inputs are only read.
-/
import proofs.«101875_g19164144075462_retrytranche2_391_21_alg».proof.Proof.Gen.KernelIdeal.Frame
import proofs.«101875_g19164144075462_retrytranche2_391_21_alg».proof.Proof.Gen.KernelIdeal.Skeleton
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Which points store and which accumulate -/

/-- The first branch (store the share) is taken at point 0 only, -/
theorem first_iff : ∀ t : Fin cfg0.N, k0_cond1 (grid0.coords t) = 1#1 ↔ t.val = 0 :=
  (by decide +kernel : ∀ t : Fin grid0.N, k0_cond1 (grid0.coords t) = 1#1 ↔ t.val = 0)
/-- the second (add the share to the buffer) at every later point. -/
theorem later_iff : ∀ t : Fin cfg0.N, k0_cond2 (grid0.coords t) = 1#1 ↔ 1 ≤ t.val :=
  (by decide +kernel : ∀ t : Fin grid0.N, k0_cond2 (grid0.coords t) = 1#1 ↔ 1 ≤ t.val)
/-- So the body stores into the output buffer at every point: one of the two branches is always taken. -/
theorem out_live : ∀ i : grid0.Coords, cfg0.idle 2 i = false := by decide +kernel

/-- The whole-block rectangle of the 1×1 buffer starts at the origin. -/
theorem origin2 : (![0, 0] : Fin 2 → ℕ) = fun _ => 0 := by funext a; fin_cases a <;> rfl

/-! ## What one point computes -/

/-- The three coordinate planes of batch `2g + r` (r = 0, 1) of a cloud held as planes: the 3×1×2048 box the body loads. -/
def rowsOf (i : grid0.Coords) (r : Fin 2) (x : Vec F S3x8x2048 .f32) : Vec F S3x1x2048 .f32 :=
  View.ld x (Rect.unit (s := S3x8x2048) (k0_off1 i (BitVec.ofNat 32 r.val)) S3x1x2048.size (k0_off1_inb i r))

/-- A point's share of the loss: the four quotients of its two batches, added from zero. -/
def stepVal (i : grid0.Coords) (x0 x1 : Vec F S3x8x2048 .f32) : Vec F S1x1 .f32 :=
  k0_pay1 (k0_pay6 (k0_pay4 (rowsOf i 1 x0)) (k0_pay5 (rowsOf i 1 x1)))
    (k0_pay7 (k0_pay3 (rowsOf i 0 x0) (rowsOf i 0 x1)))
    (k0_pay8 (k0_pay4 (rowsOf i 1 x0)) (k0_pay5 (rowsOf i 1 x1)))

/-- What a later point leaves in the accumulator that held `xo`: `xo` plus its share. -/
def accVal (i : grid0.Coords) (x0 x1 : Vec F S3x8x2048 .f32) (xo : Vec F S1x1 .f32) : Vec F S1x1 .f32 :=
  k0_pay2 (k0_pay6 (k0_pay4 (rowsOf i 1 x0)) (k0_pay5 (rowsOf i 1 x1)))
    (k0_pay7 (k0_pay3 (rowsOf i 0 x0) (rowsOf i 0 x1)))
    (k0_pay8 (k0_pay4 (rowsOf i 1 x0)) (k0_pay5 (rowsOf i 1 x1))) xo

/-! ## The body's two runs -/

set_option maxHeartbeats 1000000 in
/-- At the first point: the inputs read and left as they were, the output buffer, whatever it held, left at the share. -/
theorem run_first (c : Dev nD) (i : grid0.Coords) (arg1 : Memref sig .tc .vmem S3x8x2048 .f32) (harg1 : arg1.IsWhole) (arg2 : Memref sig .tc .vmem S3x8x2048 .f32) (harg2 : arg2.IsWhole) (arg3 : Memref sig .tc .vmem S1x1 .f32) (harg3 : arg3.IsWhole) (hc0 : k0_cond1 i = 1#1) (hc1 : ¬ k0_cond2 i = 1#1)
    (x0 : Vec F S3x8x2048 .f32) (x1 : Vec F S3x8x2048 .f32) (E : Set ℕ) (K : PUnit → sProp 𝕄) :
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ owns (c : Thread nD τ) arg3 fullShare (stepVal i x0 x1)) -∗ K ⟨⟩))
          ⊢ wp frame (wpE (defs₀ (F := F)) Variants.none c none) E (cc0__chamfer_body i arg1 harg1 arg2 harg2 arg3 harg3) K := by
    simp only [cc0__chamfer_body_eq_skeleton]; unfold cc0__chamfer_body_skel
    simp only [k0_part1_eq_skeleton, k0_part2_eq_skeleton]
    unfold owns
    iintro ⟨⟨%f0, %hf0, H0⟩, ⟨%f1, %hf1, H1⟩, ⟨%d2, %f2, %hf2, H2⟩, Hk⟩
    obtain rfl := harg1.eq_unread hf0; obtain rfl := harg2.eq_unread hf1
    sl_exec (disch := first | exact hc0 | exact hc1)
    sl_unfold_words
    sl_step
    iapply Hk
    isplitl [H0]
    · iexists _; isplitr; · ipureintro; exact harg1.read_unread _
      iexact H0
    isplitl [H1]
    · iexists _; isplitr; · ipureintro; exact harg2.read_unread _
      iexact H1
    iexists _; isplitr; swap; · iexact H2
    ipureintro
    rw [View.read_writes_eq_canon _ _ _ (fun y => ⟨_, List.mem_singleton_self _, View.mem_set_unit_zero origin2 Gen.inb_S1x1_S1x1_0_0 y⟩),
      View.canon_unit_zero origin2]
    simp only [View.readAt_eq_ld, harg1.read_unread, harg2.read_unread]
    rfl

set_option maxHeartbeats 1000000 in
/-- At a later point: the inputs read and left as they were, the output buffer that held `xo` left at `xo` plus the share. -/
theorem run_later (c : Dev nD) (i : grid0.Coords) (arg1 : Memref sig .tc .vmem S3x8x2048 .f32) (harg1 : arg1.IsWhole) (arg2 : Memref sig .tc .vmem S3x8x2048 .f32) (harg2 : arg2.IsWhole) (arg3 : Memref sig .tc .vmem S1x1 .f32) (harg3 : arg3.IsWhole) (hc0 : ¬ k0_cond1 i = 1#1) (hc1 : k0_cond2 i = 1#1)
    (x0 : Vec F S3x8x2048 .f32) (x1 : Vec F S3x8x2048 .f32) (xo : Vec F S1x1 .f32) (E : Set ℕ) (K : PUnit → sProp 𝕄) :
        iprop(owns (c : Thread nD τ) arg1 fullShare x0 ∗ owns (c : Thread nD τ) arg2 fullShare x1 ∗ owns (c : Thread nD τ) arg3 fullShare xo
            ∗ (iprop(owns (c : Thread nD τ) arg1 fullShare x0 ∗ owns (c : Thread nD τ) arg2 fullShare x1 ∗ owns (c : Thread nD τ) arg3 fullShare (accVal i x0 x1 xo)) -∗ K ⟨⟩))
          ⊢ wp frame (wpE (defs₀ (F := F)) Variants.none c none) E (cc0__chamfer_body i arg1 harg1 arg2 harg2 arg3 harg3) K := by
    simp only [cc0__chamfer_body_eq_skeleton]; unfold cc0__chamfer_body_skel
    simp only [k0_part1_eq_skeleton, k0_part2_eq_skeleton]
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0 | exact hc1)
    sl_unfold_words
    sl_step
    iapply Hk
    isplitl [H0]
    · iexists _; isplitr; · ipureintro; exact harg1.read_unread _
      iexact H0
    isplitl [H1]
    · iexists _; isplitr; · ipureintro; exact harg2.read_unread _
      iexact H1
    iexists _; isplitr; swap; · iexact H2
    ipureintro
    rw [View.read_writes_eq_canon _ _ _ (fun y => ⟨_, List.mem_singleton_self _, View.mem_set_unit_zero origin2 Gen.inb_S1x1_S1x1_0_0 y⟩),
      View.canon_unit_zero origin2]
    simp only [View.readAt_eq_ld, harg1.read_unread, harg2.read_unread, harg3.read_unread, View.ld_unit_zero (S := S1x1) origin2]
    rfl

/-! ## The accumulator, point by point, and the proof data -/

variable (m : (ℓ : Loc nD τ sig) → Buf (Elt F) ℓ) (ρ : Dev nD → PrngReg)

/-- Each window's current staging memref at point `t`, as the pipeline passes it to the body, and its wholeness. -/
abbrev ms0 (t : Fin cfg0.N) : Memref sig .tc .vmem S3x8x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S3x8x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1 .f32 := win0_2.stage (cfg0.slots t 2)
abbrev hs2 (t : Fin cfg0.N) : (ms2 t).IsWhole := hstage0_2 ((cfg0.slots t 2).cast nbuf0_2)

/-- What the output buffer holds after the body at point `n`: the shares of points 0 … n, added in that order. -/
def accAt (c : Dev nD) : (n : ℕ) → n < cfg0.N → Vec F S1x1 .f32
  | 0, hn => stepVal (grid0.coords ⟨0, hn⟩) (iblk m c 0 ⟨0, hn⟩) (iblk m c 1 ⟨0, hn⟩)
  | n + 1, hn => accVal (grid0.coords ⟨n + 1, hn⟩) (iblk m c 0 ⟨n + 1, hn⟩) (iblk m c 1 ⟨n + 1, hn⟩) (accAt c n (Nat.lt_of_succ_lt hn))

theorem accAt_first (c : Dev nD) (t : Fin cfg0.N) (h0 : t.val = 0) :
    accAt m c t.val t.isLt = stepVal (grid0.coords t) (iblk m c 0 t) (iblk m c 1 t) := by
  obtain ⟨n, hn⟩ := t
  cases n with
  | zero => rfl
  | succ n => exact absurd h0 (Nat.succ_ne_zero n)

theorem accAt_later (c : Dev nD) (t : Fin cfg0.N) (h1 : 1 ≤ t.val) :
    accAt m c t.val t.isLt = accVal (grid0.coords t) (iblk m c 0 t) (iblk m c 1 t)
      (accAt m c (t.val - 1) (Nat.lt_of_le_of_lt (Nat.sub_le _ _) t.isLt)) := by
  obtain ⟨n, hn⟩ := t
  cases n with
  | zero => exact absurd h1 (Nat.not_succ_le_zero 0)
  | succ n => rfl

/-- The proof data of the pipeline on core `c`: the arrays as the region finds them; after the body at point `t` each
    input buffer at its block and the output buffer at `accAt t`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => accAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = accAt m c t.val t.isLt := by dsimp only [dats]

/-- Each input buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
/-- At a later point the output buffer holds what the point before left: it is not the first point, the buffer was not
    written back between, and the body stores into it at every point. -/
theorem before2_later (c : Dev nD) (t : Fin cfg0.N) (h1 : 1 ≤ t.val) (d) :
    (dats m 0 c).before 2 t d = accAt m c (t.val - 1) (Nat.lt_of_le_of_lt (Nat.sub_le _ _) t.isLt) := by
  have hN : t.val < 4 := lt_of_lt_of_eq t.isLt (show cfg0.N = 4 from N_0)
  rw [Dat.before_out_kept _ 2 rfl t (by omega) (Bool.eq_false_iff.mpr fun h => by have := (flush0_2 _).mp h; dsimp only at this; omega)
    out_live (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 800000 in
/-- The body at any point: the inputs hold their blocks; at the first point the first run applies, at a later one the
    second, the output buffer holding what the point before left; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    show (dats m 0 c).leavesExact 0 t = owns (c : Thread nD τ) (ms0 t) fullShare ((dats m 0 c).after 0 t) from rfl,
    show (dats m 0 c).leavesExact 1 t = owns (c : Thread nD τ) (ms1 t) fullShare ((dats m 0 c).after 1 t) from rfl,
    show (dats m 0 c).leavesExact 2 t = owns (c : Thread nD τ) (ms2 t) fullShare ((dats m 0 c).after 2 t) from by
      unfold Dat.leavesExact; rw [out_live (grid0.coords t)],
    after0, after1, after2]
  have hN : t.val < 4 := lt_of_lt_of_eq t.isLt (show cfg0.N = 4 from N_0)
  by_cases h0 : t.val = 0
  · rw [accAt_first m c t h0]
    iintro ⟨HΦ, Ho, ⟨%d0, H0⟩, ⟨%d1, H1⟩, ⟨%d2, H2⟩⟩
    iapply (run_first c (grid0.coords t) _ _ _ _ _ _ ((first_iff t).mpr h0) (fun h => by have := (later_iff t).mp h; omega)
      (iblk m c 0 t) (iblk m c 1 t) Set.univ _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · have h1 : 1 ≤ t.val := by omega
    rw [accAt_later m c t h1]
    simp only [before2_later m c t h1]
    iintro ⟨HΦ, Ho, ⟨%d0, H0⟩, ⟨%d1, H1⟩, ⟨%d2, H2⟩⟩
    iapply (run_later c (grid0.coords t) _ _ _ _ _ _ (fun h => h0 ((first_iff t).mp h)) ((later_iff t).mpr h1)
      (iblk m c 0 t) (iblk m c 1 t) _ Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; the pipeline's arrays end at what the write-backs leave, the reshape
    after the region is applied to that, and every other buffer keeps its contents. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.KernelIdealRun.lean ====
/-
  What the kernel program leaves in its result, at any reading of its floats.

  The two clouds reach the kernel as coordinate planes: @main transposes each argument array (batch, point, axis) to
  (axis, batch, point) before the region, so entry (d, β, n) of a staged array is entry (β, n, d) of the argument. Each
  input window's one block is its whole array, and the box the body loads for batch 2g + r is that batch's three planes.
  The output window's one block is the whole 1×1 result array, written back after the last of the four points only; so
  the array ends at what the accumulator held after point 3, and the reshape after the region hands that one entry to
  the rank-0 result.
-/
import proofs.«101875_g19164144075462_retrytranche2_391_21_alg».proof.Proof.KernelIdealBody
import Idealize.ShloMosaic.Lib.StableHlo.Run
import Idealize.ShloMosaic.Lib.ValueIdx

set_option maxRecDepth 16384

noncomputable section

namespace Cert.KernelIdeal.Body

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

variable {F : FTy → Type} [FloatOps F]

variable (m : (ℓ : Loc nD τ sig) → Buf (Elt F) ℓ) (ρ : Dev nD → PrngReg)

/-! ## The staged arrays are the transposed arguments -/

theorem planes0 (c : Dev nD) : (V m c main_v0 : S3x8x2048.Idx → Elt F .f32)
    = transpose S3x8x2048 [2, 0, 1] (m ((c : Thread nD τ).loc main_arg0)) transposes_S8x2048x3_S3x8x2048_2_0_1 := by
  show StableHlo.after hostOps0 (fun b => m (c, b)) (Proc.devRef .tc main_v0) = _
  after_results

theorem planes1 (c : Dev nD) : (V m c main_v1 : S3x8x2048.Idx → Elt F .f32)
    = transpose S3x8x2048 [2, 0, 1] (m ((c : Thread nD τ).loc main_arg1)) transposes_S8x2048x3_S3x8x2048_2_0_1 := by
  show StableHlo.after hostOps0 (fun b => m (c, b)) (Proc.devRef .tc main_v1) = _
  after_results

/-- Entry (d, β, n) of the planes is entry (β, n, d) of the cloud. -/
theorem planes_apply (A : S8x2048x3.Idx → Elt F .f32) (d : Fin 3) (β : Fin 8) (n : Fin 2048) :
    transpose S3x8x2048 [2, 0, 1] A transposes_S8x2048x3_S3x8x2048_2_0_1 (ix3 d β n) = A (ix3 β n d) :=
  transpose_apply _ _ _ (ix3 d β n) (ix3 β n d) (fun b => match b with | ⟨0, _⟩ => rfl | ⟨1, _⟩ => rfl | ⟨2, _⟩ => rfl)

/-! ## The blocks -/

/-- Every window's block index is zero on every axis at every point: one block, the whole array. -/
theorem index_zero : ∀ t : Fin cfg0.N, (∀ a, win0_0.index t a = 0) ∧ (∀ a, win0_1.index t a = 0) ∧ (∀ a, win0_2.index t a = 0) :=
  (by decide +kernel : ∀ t : Fin grid0.N, (∀ a, win0_0.index t a = 0) ∧ (∀ a, win0_1.index t a = 0) ∧ (∀ a, win0_2.index t a = 0))

/-- The grid is one axis of four points: point t has coordinate t. -/
theorem coord_val : ∀ t : Fin cfg0.N, (grid0.coords t 0).val = t.val :=
  (by decide +kernel : ∀ t : Fin grid0.N, (grid0.coords t 0).val = t.val)

theorem iblk0_eq (c : Dev nD) (t : Fin cfg0.N) : (iblk m c 0 t : S3x8x2048.Idx → Elt F .f32) = V m c main_v0 := by
  funext j
  show V m c main_v0 (((cfg0.win 0).blk t).view.emb j) = V m c main_v0 j
  refine congrArg _ (funext fun a => Fin.ext ?_)
  obtain ⟨e0, -, -⟩ := index_zero t
  match a with
  | ⟨0, _⟩ => show win0_0.index t (0 : Fin 3) * 3 + 1 * (j 0).val = (j 0).val; rw [e0 0]; omega
  | ⟨1, _⟩ => show win0_0.index t (1 : Fin 3) * 8 + 1 * (j 1).val = (j 1).val; rw [e0 1]; omega
  | ⟨2, _⟩ => show win0_0.index t (2 : Fin 3) * 2048 + 1 * (j 2).val = (j 2).val; rw [e0 2]; omega

theorem iblk1_eq (c : Dev nD) (t : Fin cfg0.N) : (iblk m c 1 t : S3x8x2048.Idx → Elt F .f32) = V m c main_v1 := by
  funext j
  show V m c main_v1 (((cfg0.win 1).blk t).view.emb j) = V m c main_v1 j
  refine congrArg _ (funext fun a => Fin.ext ?_)
  obtain ⟨-, e1, -⟩ := index_zero t
  match a with
  | ⟨0, _⟩ => show win0_1.index t (0 : Fin 3) * 3 + 1 * (j 0).val = (j 0).val; rw [e1 0]; omega
  | ⟨1, _⟩ => show win0_1.index t (1 : Fin 3) * 8 + 1 * (j 1).val = (j 1).val; rw [e1 1]; omega
  | ⟨2, _⟩ => show win0_1.index t (2 : Fin 3) * 2048 + 1 * (j 2).val = (j 2).val; rw [e1 2]; omega

/-- The box loaded for batch β = 2t + r at point t is that batch's three planes. -/
theorem rowsOf_apply (t : Fin cfg0.N) (r : Fin 2) (β : Fin 8) (hβ : β.val = 2 * t.val + r.val) (x : Vec F S3x8x2048 .f32)
    (d : Fin 3) (n : Fin 2048) : rowsOf (grid0.coords t) r x (ix3 d 0 n) = x (ix3 d β n) := by
  unfold rowsOf
  show x ((Rect.unit (s := S3x8x2048) (k0_off1 (grid0.coords t) (BitVec.ofNat 32 r.val)) S3x1x2048.size (k0_off1_inb (grid0.coords t) r)).idx (ix3 d 0 n)) = _
  refine congrArg x (funext fun a => Fin.ext ?_)
  rw [LoadRect.idx_apply]
  simp only [Rect.off_unit, Rect.stride_unit, k0_off1_eq, coord_val]
  match a with
  | ⟨0, _⟩ => show 0 + 1 * d.val = d.val; omega
  | ⟨1, _⟩ => show (2 * t.val + r.val) + 1 * 0 = β.val; omega
  | ⟨2, _⟩ => show 0 + 1 * n.val = n.val; omega

/-! ## The result array after the run -/

theorem three_lt : 3 < cfg0.N := by rw [show cfg0.N = 4 from N_0]; decide

/-- What the one write-back writes is the accumulator after point 3, read through the whole-array block. -/
theorem flushed2_eq (c : Dev nD) (t : Fin cfg0.N) (hf : (cfg0.win 2).flush t = true) :
    (dats m 0 c).flushed 2 t = ((cfg0.win 2).blk t).view.read (Elt F) (accAt m c 3 three_lt) := by
  have hN : t.val < 4 := lt_of_lt_of_eq t.isLt (show cfg0.N = 4 from N_0)
  have h3 : t = ⟨3, three_lt⟩ := Fin.ext (by have := (flush0_2 t).mp hf; show t.val = 3; omega)
  subst h3
  show (cfg0.win 2).cut (grid0.coords ⟨3, three_lt⟩) ((dats m 0 c).after 2 ⟨3, three_lt⟩) = _
  rw [after2]
  funext j
  show accAt m c 3 three_lt j = accAt m c 3 three_lt (((cfg0.win 2).blk ⟨3, three_lt⟩).view.emb j)
  refine congrArg _ (funext fun a => Fin.ext ?_)
  obtain ⟨-, -, e2⟩ := index_zero ⟨3, three_lt⟩
  match a with
  | ⟨0, _⟩ => show (j 0).val = win0_2.index ⟨3, three_lt⟩ (0 : Fin 2) * 1 + 1 * (j 0).val; rw [e2 0]; omega
  | ⟨1, _⟩ => show (j 1).val = win0_2.index ⟨3, three_lt⟩ (1 : Fin 2) * 1 + 1 * (j 1).val; rw [e2 1]; omega

/-- Every entry of the result array lies in that block. -/
theorem covered2 (i : S1x1.Idx) : ∃ t : Fin cfg0.N, (cfg0.win 2).flush t = true ∧ i ∈ ((cfg0.win 2).blk t).view.set := by
  refine ⟨⟨3, three_lt⟩, (flush0_2 _).mpr rfl, ?_⟩
  show i ∈ ((View.whole main_v2).slice (win0_2.rect ⟨3, three_lt⟩)).set
  rw [View.set_slice_whole, Rect.mem_set_unit]
  obtain ⟨-, -, e2⟩ := index_zero ⟨3, three_lt⟩
  intro a
  match a with
  | ⟨0, _⟩ => show win0_2.index ⟨3, three_lt⟩ (0 : Fin 2) * 1 ≤ (i 0).val ∧ (i 0).val < win0_2.index ⟨3, three_lt⟩ (0 : Fin 2) * 1 + 1; rw [e2 0]; have hi : (i 0).val < 1 := (i 0).isLt; omega
  | ⟨1, _⟩ => show win0_2.index ⟨3, three_lt⟩ (1 : Fin 2) * 1 ≤ (i 1).val ∧ (i 1).val < win0_2.index ⟨3, three_lt⟩ (1 : Fin 2) * 1 + 1; rw [e2 1]; have hi : (i 1).val < 1 := (i 1).isLt; omega

/-- So the result array ends at the accumulator after point 3. -/
theorem final2 (c : Dev nD) : (dats m 0 c).arrAt 2 cfg0.N = accAt m c 3 three_lt :=
  (dats m 0 c).arrAt_eq_of_cover 2 (accAt m c 3 three_lt) (fun t hf => flushed2_eq m c t hf) (covered2)

/-- The reshape after the region reads that array into the rank-0 result. -/
theorem result_eq (c : Dev nD) :
    Pipeline.afterTail₀ cfgs (dats m) 0 (V0 m) [hostOps1] c main_v3 = shapeCast S_ (accAt m c 3 three_lt) shapeCasts_S1x1_S_ := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2)
      = accAt m c 3 three_lt :=
    (Pipeline.withArrays_arr spec0 launch0.win.arr_inj c _ _ 2).trans (final2 m c)
  rw [e]
  rfl

/-- The rank-0 result's one entry is the accumulator's one entry. -/
theorem scalar_apply (x : S1x1.Idx → Elt F .f32) (i : S_.Idx) : shapeCast S_ x shapeCasts_S1x1_S_ i = x (ix2 0 0) :=
  shapeCast_apply x shapeCasts_S1x1_S_ i (ix2 0 0) (by rw [eq_ix0 i]; decide)

/-! ## The run, with the result named -/

/-- Every weakly fair execution of @main terminates with the result at the accumulator's entry after the last point
    and the two argument arrays as launched. -/
theorem run_value : θ_run defs (onTc (τ := τ) (main (F := F))) ⟨m, fun _ => 0, ρ⟩ (fun r => ∀ c : Dev nD,
      r.2.mem ((c.tc : Thread nD τ).loc main_v3) = (fun _ => accAt m c 3 three_lt (ix2 0 0))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨(((h c).2 main_v3 (Pipeline.mem_restRefs_of main_v3 (by decide) (by decide))).trans (result_eq m c)).trans
          (funext fun i => scalar_apply _ i),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Body

end
-- ==== Proof.ChamferSpec.lean ====
/-
  The Chamfer loss between two batches of point clouds, in the two spellings the two programs compute it in.

  A cloud is eight batches of 2048 points of three coordinates. For points a of the first cloud and b of the
  second, the squared distance is |a|² + |b|² − 2 a·b. One program forms exactly that expression; the other forms
  the same number as ONE contraction of length eight, ⟨(−2a, |a|², 1, 0, 0, 0), (b, 1, |b|², 0, 0, 0)⟩.
  The loss is the mean over all points of the first cloud of the distance to the nearest point of the second,
  plus the same with the clouds exchanged, each distance clamped below at zero. One program clamps every distance
  and then takes minima and divides the two grand totals by the number of points; the other takes minima, clamps
  them, divides each batch's two totals by the number of points and adds the quotients up two batches at a time.
-/
import Idealize.ShloMosaic.PureOps.Ideal
import Idealize.ShloMosaic.Lib.ValueIdx

noncomputable section

namespace Cert.ChamferSpec

open Idealize.ShloMosaic Idealize.ShloMosaic.ValueIdx

/-- A batch of point clouds by coordinates: batch, point, axis. -/
abbrev Cloud := Fin 8 → Fin 2048 → Fin 3 → EReal
/-- A batch of matrices of squared distances: batch, point of the first cloud, point of the second. -/
abbrev Dist := Fin 8 → Fin 2048 → Fin 2048 → EReal

/-- The constants of both programs, as the single-precision patterns they are printed with. -/
def zero32 : EReal := Ideal.ofBits .f32 0x00000000#32
def one32 : EReal := Ideal.ofBits .f32 0x3F800000#32
def two32 : EReal := Ideal.ofBits .f32 0x40000000#32
def negTwo32 : EReal := Ideal.ofBits .f32 0xC0000000#32
def inf32 : EReal := Ideal.ofBits .f32 0x7F800000#32
def count32 : EReal := Ideal.ofBits .f32 0x46800000#32

/-- An array laid out batch, point, axis, as a cloud. -/
def cloudOf (A : (⟨3, ![8, 2048, 3]⟩ : Shape).Idx → EReal) : Cloud := fun β n d => A (ix3 β n d)
/-- An array laid out axis, batch, point (coordinate planes), as a cloud. -/
def planesOf (X : (⟨3, ![3, 8, 2048]⟩ : Shape).Idx → EReal) : Cloud := fun β n d => X (ix3 d β n)

/-- |a|² + |b|² − 2 a·b, each squared norm a sum started at zero. -/
def distRef (a b : Cloud) : Dist := fun β n m =>
  ((zero32 + ∑ d : Fin 3, a β n d * a β n d) + (zero32 + ∑ d : Fin 3, b β m d * b β m d))
    - two32 * ∑ d : Fin 3, a β n d * b β m d

/-- The mean clamped nearest-neighbour distance in both directions: clamp, minimise, total, divide. -/
def lossRef (D : Dist) : EReal :=
  Ideal.div (zero32 + ∑ β : Fin 8, ∑ n : Fin 2048,
      (Finset.univ : Finset (Fin 2048)).fold min inf32 (fun m => max (D β n m) zero32)) count32
  + Ideal.div (zero32 + ∑ β : Fin 8, ∑ m : Fin 2048,
      (Finset.univ : Finset (Fin 2048)).fold min inf32 (fun n => max (D β n m) zero32)) count32

/-- A point of the first cloud augmented to length eight: −2a, |a|², 1, then zeros. -/
def augL (a : Cloud) (β : Fin 8) (n : Fin 2048) : Fin 8 → EReal := fun k =>
  if h : k.val < 3 then negTwo32 * a β n ⟨k.val, h⟩
  else if k.val = 3 then ∑ d : Fin 3, a β n d * a β n d
  else if k.val = 4 then one32 else zero32

/-- A point of the second cloud augmented to length eight: b, 1, |b|², then zeros. -/
def augR (b : Cloud) (β : Fin 8) (m : Fin 2048) : Fin 8 → EReal := fun k =>
  if h : k.val < 3 then b β m ⟨k.val, h⟩
  else if k.val = 3 then one32
  else if k.val = 4 then ∑ d : Fin 3, b β m d * b β m d else zero32

/-- The squared distance as one contraction of the augmented points. -/
def distKer (a b : Cloud) : Dist := fun β n m => ∑ k : Fin 8, augL a β n k * augR b β m k

/-- One batch's total of clamped row minima, -/
def rowTerm (D : Dist) (β : Fin 8) : EReal :=
  ∑ n : Fin 2048, max ((Finset.univ : Finset (Fin 2048)).fold min inf32 (fun m => D β n m)) zero32
/-- and of clamped column minima. -/
def colTerm (D : Dist) (β : Fin 8) : EReal :=
  ∑ m : Fin 2048, max ((Finset.univ : Finset (Fin 2048)).fold min inf32 (fun n => D β n m)) zero32

/-- Two batches' four quotients added up from zero, in the order row, column, row, column. -/
def stepKer (D : Dist) (β0 β1 : Fin 8) : EReal :=
  (((zero32 + Ideal.div (rowTerm D β0) count32) + Ideal.div (colTerm D β0) count32)
    + Ideal.div (rowTerm D β1) count32) + Ideal.div (colTerm D β1) count32

/-- The four pairs of batches accumulated in order. -/
def lossKer (D : Dist) : EReal := ((stepKer D 0 1 + stepKer D 2 3) + stepKer D 4 5) + stepKer D 6 7

end Cert.ChamferSpec

end
-- ==== Proof.KernelPayload.lean ====
/-
  What the kernel body's arithmetic computes at the ideal values, read at an index.

  The body forms, for each of the two batches it handles, the matrix of squared distances as ONE contraction of
  length eight of two augmented coordinate arrays, takes the minima along both axes, clamps them at zero, totals
  them, divides by the number of points and adds the quotients up. Here each of those arrays is read at an index:
  the layout operations first (a unit axis dropped or added, four pieces laid end to end), then the reductions over
  one axis and over a whole array, then the contraction, and last the payloads themselves.
-/
import proofs.«101875_g19164144075462_retrytranche2_391_21_alg».proof.Proof.Gen.KernelIdeal.Skeleton
import proofs.«101875_g19164144075462_retrytranche2_391_21_alg».proof.Proof.ChamferSpec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payload

open Cert.ChamferSpec Idealize.ShloMosaic Idealize.ShloMosaic.ValueIdx Cert.KernelIdeal Cert.KernelIdeal.Gen
open Cert.KernelIdeal.Facts₀

variable [Facts]

/-! ## Layout operations read at an index -/

section Layout
variable {α : Type}

/-- A `[3, 1, 2048]` array cast to `[3, 2048]` reads, at `(d, n)`, the operand at `(d, 0, n)`: the unit axis dropped
    is the middle one. -/
theorem cast_planes_apply (v : S3x1x2048.Idx → α) (h : S3x1x2048.ShapeCasts S3x2048) (d : Fin 3) (n : Fin 2048) :
    shapeCast S3x2048 v h (ix2 d n) = v (ix3 d (0 : Fin 1) n) :=
  shapeCast_apply v h _ _ (by
    rw [Shape.rowMajor_val_three, Shape.rowMajor_val_two]
    show (d.val * 1 + 0) * 2048 + n.val = d.val * 2048 + n.val
    omega)

/-- A `[2048]` array cast to the column `[2048, 1]` reads, at `(n, u)`, the operand at `n`. -/
theorem cast_column_apply (x : S2048.Idx → α) (h : S2048.ShapeCasts S2048x1) (n : Fin 2048) (u : Fin 1) :
    shapeCast S2048x1 x h (ix2 n u) = x (ix1 n) :=
  shapeCast_apply x h _ _ (by
    have hu : u.val = 0 := by omega
    rw [Shape.rowMajor_val_two, Shape.rowMajor_val_one]
    show n.val = n.val * 1 + u.val
    omega)

/-- A one-element array cast to `[1, 1, 1]` reads its one element wherever it is read. -/
theorem cast_unit_apply (x : S1.Idx → α) (h : S1.ShapeCasts S1x1x1) (j : S1x1x1.Idx) :
    shapeCast S1x1x1 x h j = x (ix1 (0 : Fin 1)) :=
  shapeCast_apply x h _ _ (by
    have h0 : (j 0).val < 1 := (j 0).isLt
    have h1 : (j 1).val < 1 := (j 1).isLt
    have h2 : (j 2).val < 1 := (j 2).isLt
    rw [Shape.rowMajor_val_three, Shape.rowMajor_val_one]
    show (0 : Nat) = ((j 0).val * 1 + (j 1).val) * 1 + (j 2).val
    omega)

/-- The indices of a `[1, 2048, 1]` array are the coordinates on its one long axis. -/
def midEquiv : S1x2048x1.Idx ≃ Fin 2048 where
  toFun i := i 1
  invFun n := ix3 (0 : Fin 1) n (0 : Fin 1)
  left_inv i := by
    funext a
    match a with
    | ⟨0, _⟩ => exact Fin.ext (by have h : (i 0).val < 1 := (i 0).isLt; show 0 = (i 0).val; omega)
    | ⟨1, _⟩ => rfl
    | ⟨2, _⟩ => exact Fin.ext (by have h : (i 2).val < 1 := (i 2).isLt; show 0 = (i 2).val; omega)
  right_inv _ := rfl

/-- The indices of a `[1, 1, 2048]` array likewise. -/
def lastEquiv : S1x1x2048.Idx ≃ Fin 2048 where
  toFun i := i 2
  invFun n := ix3 (0 : Fin 1) (0 : Fin 1) n
  left_inv i := by
    funext a
    match a with
    | ⟨0, _⟩ => exact Fin.ext (by have h : (i 0).val < 1 := (i 0).isLt; show 0 = (i 0).val; omega)
    | ⟨1, _⟩ => exact Fin.ext (by have h : (i 1).val < 1 := (i 1).isLt; show 0 = (i 1).val; omega)
    | ⟨2, _⟩ => rfl
  right_inv _ := rfl

/-- So a sum over every index of a `[1, 2048, 1]` array is the sum along its long axis, -/
theorem sum_mid {M : Type} [AddCommMonoid M] (f : S1x2048x1.Idx → M) :
    ∑ i, f i = ∑ n : Fin 2048, f (ix3 (0 : Fin 1) n (0 : Fin 1)) :=
  (Equiv.sum_comp midEquiv.symm f).symm

/-- and the same for `[1, 1, 2048]`. -/
theorem sum_last {M : Type} [AddCommMonoid M] (f : S1x1x2048.Idx → M) :
    ∑ i, f i = ∑ n : Fin 2048, f (ix3 (0 : Fin 1) (0 : Fin 1) n) :=
  (Equiv.sum_comp lastEquiv.symm f).symm

end Layout

/-! ## Four pieces laid end to end along the first axis

The augmented arrays are concatenations of pieces of 3, 1, 1 and 3 rows. Row `k` of the result is row `k` of the
first piece below 3, the one row of the second piece at 3, of the third at 4, and row `k - 5` of the last from 5 on. -/

section Pieces
variable {α : Type}

theorem pieces_first (p0 p3 : S3x2048.Idx → α) (p1 p2 : S1x2048.Idx → α)
    (hc : Shape.Concatenates [S3x2048, S1x2048, S1x2048, S3x2048] S8x2048 0)
    (k : Fin 8) (n : Fin 2048) (hk : k.val < 3) :
    concatenate S8x2048 0 [⟨S3x2048, p0⟩, ⟨S1x2048, p1⟩, ⟨S1x2048, p2⟩, ⟨S3x2048, p3⟩] hc (ix2 k n)
      = p0 (ix2 ⟨k.val, hk⟩ n) :=
  concatenate_apply_piece 0 [⟨S3x2048, p0⟩, ⟨S1x2048, p1⟩, ⟨S1x2048, p2⟩, ⟨S3x2048, p3⟩] hc (ix2 k n) 0 (by show (0 : Nat) < 4; decide) S3x2048 p0 rfl rfl 0 rfl (ix2 ⟨k.val, hk⟩ n)
    (fun b hb => by
      match b with
      | ⟨0, _⟩ => exact absurd rfl hb
      | ⟨1, _⟩ => rfl)
    (Nat.zero_add _)

theorem pieces_second (p0 p3 : S3x2048.Idx → α) (p1 p2 : S1x2048.Idx → α)
    (hc : Shape.Concatenates [S3x2048, S1x2048, S1x2048, S3x2048] S8x2048 0)
    (k : Fin 8) (n : Fin 2048) (hk : k.val = 3) :
    concatenate S8x2048 0 [⟨S3x2048, p0⟩, ⟨S1x2048, p1⟩, ⟨S1x2048, p2⟩, ⟨S3x2048, p3⟩] hc (ix2 k n)
      = p1 (ix2 (0 : Fin 1) n) :=
  concatenate_apply_piece 0 [⟨S3x2048, p0⟩, ⟨S1x2048, p1⟩, ⟨S1x2048, p2⟩, ⟨S3x2048, p3⟩] hc (ix2 k n) 1 (by show (1 : Nat) < 4; decide) S1x2048 p1 rfl rfl 3 rfl (ix2 (0 : Fin 1) n)
    (fun b hb => by
      match b with
      | ⟨0, _⟩ => exact absurd rfl hb
      | ⟨1, _⟩ => rfl)
    (by show 3 + 0 = k.val; omega)

theorem pieces_third (p0 p3 : S3x2048.Idx → α) (p1 p2 : S1x2048.Idx → α)
    (hc : Shape.Concatenates [S3x2048, S1x2048, S1x2048, S3x2048] S8x2048 0)
    (k : Fin 8) (n : Fin 2048) (hk : k.val = 4) :
    concatenate S8x2048 0 [⟨S3x2048, p0⟩, ⟨S1x2048, p1⟩, ⟨S1x2048, p2⟩, ⟨S3x2048, p3⟩] hc (ix2 k n)
      = p2 (ix2 (0 : Fin 1) n) :=
  concatenate_apply_piece 0 [⟨S3x2048, p0⟩, ⟨S1x2048, p1⟩, ⟨S1x2048, p2⟩, ⟨S3x2048, p3⟩] hc (ix2 k n) 2 (by show (2 : Nat) < 4; decide) S1x2048 p2 rfl rfl 4 rfl (ix2 (0 : Fin 1) n)
    (fun b hb => by
      match b with
      | ⟨0, _⟩ => exact absurd rfl hb
      | ⟨1, _⟩ => rfl)
    (by show 4 + 0 = k.val; omega)

theorem pieces_last (p0 p3 : S3x2048.Idx → α) (p1 p2 : S1x2048.Idx → α)
    (hc : Shape.Concatenates [S3x2048, S1x2048, S1x2048, S3x2048] S8x2048 0)
    (k : Fin 8) (n : Fin 2048) (hk : 5 ≤ k.val) :
    concatenate S8x2048 0 [⟨S3x2048, p0⟩, ⟨S1x2048, p1⟩, ⟨S1x2048, p2⟩, ⟨S3x2048, p3⟩] hc (ix2 k n)
      = p3 (ix2 ⟨k.val - 5, by have := k.isLt; omega⟩ n) :=
  concatenate_apply_piece 0 [⟨S3x2048, p0⟩, ⟨S1x2048, p1⟩, ⟨S1x2048, p2⟩, ⟨S3x2048, p3⟩] hc (ix2 k n) 3 (by show (3 : Nat) < 4; decide) S3x2048 p3 rfl rfl 5 rfl
    (ix2 ⟨k.val - 5, by have := k.isLt; omega⟩ n)
    (fun b hb => by
      match b with
      | ⟨0, _⟩ => exact absurd rfl hb
      | ⟨1, _⟩ => rfl)
    (by show 5 + (k.val - 5) = k.val; omega)

end Pieces

/-! ## Reductions read at an index -/

/-- The sum down the three rows of a `[3, 2048]` array, at column `n`. -/
theorem sum_rows_apply (P : FVec Ideal S3x2048 .f32) (h : S3x2048.Reduces [0] S2048) (hφ : FKind.Formats .f32)
    (hacc : (0x00000000#32 : BitVec 32) = FKind.add.neutral .f32 hφ) (n : Fin 2048) :
    multiReduction (F := Ideal) .add [0] S2048 P 0x00000000#32 h hφ hacc (ix1 n) = ∑ d : Fin 3, P (ix2 d n) := by
  refine (Ideal.multiReduction_add_single P _ h hφ hacc (ix1 n)).trans (Finset.sum_congr rfl fun d _ => ?_)
  refine congrArg P (funext fun c => Fin.ext ?_)
  match c with
  | ⟨0, _⟩ => rfl
  | ⟨1, _⟩ => rfl

/-- A minimum over one axis, at the ideal values: the fold of `min` from the accumulator's value over that axis's
    coordinates. -/
theorem minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction (F := Ideal) .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The minimum along row `n` of a square matrix of distances, -/
theorem min_row_apply (M : FVec Ideal S2048x2048 .f32) (h : S2048x2048.Reduces [1] S2048) (hφ : FKind.Formats .f32)
    (hacc : (0x7F800000#32 : BitVec 32) = FKind.minimumf.neutral .f32 hφ) (n : Fin 2048) :
    multiReduction (F := Ideal) .minimumf [1] S2048 M 0x7F800000#32 h hφ hacc (ix1 n)
      = (Finset.univ : Finset (Fin 2048)).fold min inf32 (fun m => M (ix2 n m)) := by
  refine (minimumf_single M _ h hφ hacc (ix1 n)).trans ?_
  refine congrArg (Finset.fold min inf32 · (Finset.univ : Finset (Fin 2048))) (funext fun m => ?_)
  refine congrArg M (funext fun c => Fin.ext ?_)
  match c with
  | ⟨0, _⟩ => rfl
  | ⟨1, _⟩ => rfl

/-- and down column `m`. -/
theorem min_col_apply (M : FVec Ideal S2048x2048 .f32) (h : S2048x2048.Reduces [0] S2048) (hφ : FKind.Formats .f32)
    (hacc : (0x7F800000#32 : BitVec 32) = FKind.minimumf.neutral .f32 hφ) (m : Fin 2048) :
    multiReduction (F := Ideal) .minimumf [0] S2048 M 0x7F800000#32 h hφ hacc (ix1 m)
      = (Finset.univ : Finset (Fin 2048)).fold min inf32 (fun n => M (ix2 n m)) := by
  refine (minimumf_single M _ h hφ hacc (ix1 m)).trans ?_
  refine congrArg (Finset.fold min inf32 · (Finset.univ : Finset (Fin 2048))) (funext fun n => ?_)
  refine congrArg M (funext fun c => Fin.ext ?_)
  match c with
  | ⟨0, _⟩ => rfl
  | ⟨1, _⟩ => rfl

/-- The total of a column `[2048, 1]`, as the body takes it: viewed as `[1, 2048, 1]`, summed over its last two axes,
    and the one element of the result taken out. -/
theorem total_column (w : FVec Ideal S2048x1 .f32) (h1 : S2048x1.ShapeCasts S1x2048x1)
    (h2 : S1x2048x1.Reduces [1, 2] S1) (hφ : FKind.Formats .f32)
    (hacc : (0x00000000#32 : BitVec 32) = FKind.add.neutral .f32 hφ) (h3 : S1.ShapeCasts S1x1x1)
    (hpos : ∀ a, (![0, 0, 0] : Fin 3 → Nat) a < S1x1x1.size a) :
    extractAt ![0, 0, 0]
        (shapeCast S1x1x1 (multiReduction (F := Ideal) .add [1, 2] S1 (shapeCast S1x2048x1 w h1) 0x00000000#32 h2 hφ hacc) h3) hpos
      = ∑ n : Fin 2048, w (ix2 n (0 : Fin 1)) := by
  unfold extractAt
  refine (cast_unit_apply _ h3 _).trans ?_
  refine (Ideal.multiReduction_add_total _ _ h2 (fun b => ?_) hφ hacc _).trans ?_
  · match b with
    | ⟨0, _⟩ => rfl
  refine (sum_mid _).trans (Finset.sum_congr rfl fun n _ => ?_)
  exact shapeCast_ab_1ab_apply w h1 0 n 0

/-- The total of a row `[1, 2048]`, taken the same way through `[1, 1, 2048]`. -/
theorem total_row (w : FVec Ideal S1x2048 .f32) (h1 : S1x2048.ShapeCasts S1x1x2048)
    (h2 : S1x1x2048.Reduces [1, 2] S1) (hφ : FKind.Formats .f32)
    (hacc : (0x00000000#32 : BitVec 32) = FKind.add.neutral .f32 hφ) (h3 : S1.ShapeCasts S1x1x1)
    (hpos : ∀ a, (![0, 0, 0] : Fin 3 → Nat) a < S1x1x1.size a) :
    extractAt ![0, 0, 0]
        (shapeCast S1x1x1 (multiReduction (F := Ideal) .add [1, 2] S1 (shapeCast S1x1x2048 w h1) 0x00000000#32 h2 hφ hacc) h3) hpos
      = ∑ m : Fin 2048, w (ix2 (0 : Fin 1) m) := by
  unfold extractAt
  refine (cast_unit_apply _ h3 _).trans ?_
  refine (Ideal.multiReduction_add_total _ _ h2 (fun b => ?_) hφ hacc _).trans ?_
  · match b with
    | ⟨0, _⟩ => rfl
  refine (sum_last _).trans (Finset.sum_congr rfl fun m _ => ?_)
  exact shapeCast_ab_1ab_apply w h1 0 0 m

/-! ## The contraction read at an index

The two operands are `[8, 2048]` arrays contracted over their FIRST axis: entry `(n, m)` of the product is the sum
over `k` of the left operand at `(k, n)` times the right operand at `(k, m)`. -/

theorem lhs_contraction_0 (i : S2048x2048.Idx) (q : dot_S8x2048_S8x2048_S2048x2048_0_0_1_1_n_n.contr.Idx) :
    (dot_S8x2048_S8x2048_S2048x2048_0_0_1_1_n_n.lhsIdx i q 0).val = (q ⟨0, by decide⟩).val :=
  dot_S8x2048_S8x2048_S2048x2048_0_0_1_1_n_n.lhsIdx_val_of_single rfl i q
theorem lhs_contraction_1 (i : S2048x2048.Idx) (q : dot_S8x2048_S8x2048_S2048x2048_0_0_1_1_n_n.contr.Idx) :
    (dot_S8x2048_S8x2048_S2048x2048_0_0_1_1_n_n.lhsIdx i q 1).val = (i 0).val := by
  unfold DotDims.lhsIdx
  rw [dif_neg (show ¬(1 : Fin S8x2048.rank) ∈ dot_S8x2048_S8x2048_S2048x2048_0_0_1_1_n_n.lhsBatch by decide), dif_pos (show (1 : Fin S8x2048.rank) ∈ dot_S8x2048_S8x2048_S2048x2048_0_0_1_1_n_n.lhsNonContracting by decide)]
  rfl
theorem rhs_contraction_0 (i : S2048x2048.Idx) (q : dot_S8x2048_S8x2048_S2048x2048_0_0_1_1_n_n.contr.Idx) :
    (dot_S8x2048_S8x2048_S2048x2048_0_0_1_1_n_n.rhsIdx i q 0).val = (q ⟨0, by decide⟩).val :=
  dot_S8x2048_S8x2048_S2048x2048_0_0_1_1_n_n.rhsIdx_val_of_single rfl i q
theorem rhs_contraction_1 (i : S2048x2048.Idx) (q : dot_S8x2048_S8x2048_S2048x2048_0_0_1_1_n_n.contr.Idx) :
    (dot_S8x2048_S8x2048_S2048x2048_0_0_1_1_n_n.rhsIdx i q 1).val = (i 1).val := by
  unfold DotDims.rhsIdx
  rw [dif_neg (show ¬(1 : Fin S8x2048.rank) ∈ dot_S8x2048_S8x2048_S2048x2048_0_0_1_1_n_n.rhsBatch by decide), dif_pos (show (1 : Fin S8x2048.rank) ∈ dot_S8x2048_S8x2048_S2048x2048_0_0_1_1_n_n.rhsNonContracting by decide)]
  rfl

/-- The product into the zero splat, at `(n, m)`. -/
theorem contraction_apply (A B : FVec Ideal S8x2048 .f32) (n m : Fin 2048) :
    matmul dot_S8x2048_S8x2048_S2048x2048_0_0_1_1_n_n none A B (constant (F := Ideal) S2048x2048 .f32 0x00000000#32) (ix2 n m)
      = ∑ k : Fin 8, A (ix2 k n) * B (ix2 k m) := by
  simp only [matmul]
  rw [Ideal.matmul_constant_zero_apply, ← Equiv.sum_comp (contrEquiv1 dot_S8x2048_S8x2048_S2048x2048_0_0_1_1_n_n 8 rfl rfl).symm]
  refine Finset.sum_congr rfl fun k _ => ?_
  have hk := contrEquiv1_symm_val dot_S8x2048_S8x2048_S2048x2048_0_0_1_1_n_n 8 rfl rfl k
  have el : dot_S8x2048_S8x2048_S2048x2048_0_0_1_1_n_n.lhsIdx (ix2 n m) ((contrEquiv1 dot_S8x2048_S8x2048_S2048x2048_0_0_1_1_n_n 8 rfl rfl).symm k) = ix2 k n := funext fun a => Fin.ext (by
    match a with
    | ⟨0, _⟩ => exact (lhs_contraction_0 _ _).trans hk
    | ⟨1, _⟩ => exact lhs_contraction_1 _ _)
  have er : dot_S8x2048_S8x2048_S2048x2048_0_0_1_1_n_n.rhsIdx (ix2 n m) ((contrEquiv1 dot_S8x2048_S8x2048_S2048x2048_0_0_1_1_n_n 8 rfl rfl).symm k) = ix2 k m := funext fun a => Fin.ext (by
    match a with
    | ⟨0, _⟩ => exact (rhs_contraction_0 _ _).trans hk
    | ⟨1, _⟩ => exact rhs_contraction_1 _ _)
  rw [el, er]

/-! ## The augmented arrays

Column `n` of the left operand is the first cloud's point `n` augmented to length eight, −2a, |a|², 1, then zeros; column
`m` of the right operand is the second cloud's point `m` augmented, b, 1, |b|², then zeros. Both are stated over the
`[3, 2048]` coordinate planes the body has at that point. -/

/-- Row `k` of the left operand at column `n`. -/
def augLeft (P : FVec Ideal S3x2048 .f32) (n : Fin 2048) (k : Fin 8) : EReal :=
  if h : k.val < 3 then negTwo32 * P (ix2 ⟨k.val, h⟩ n)
  else if k.val = 3 then ∑ d : Fin 3, P (ix2 d n) * P (ix2 d n)
  else if k.val = 4 then one32 else zero32

/-- Row `k` of the right operand at column `m`. -/
def augRight (Q : FVec Ideal S3x2048 .f32) (m : Fin 2048) (k : Fin 8) : EReal :=
  if h : k.val < 3 then Q (ix2 ⟨k.val, h⟩ m)
  else if k.val = 3 then one32
  else if k.val = 4 then ∑ d : Fin 3, Q (ix2 d m) * Q (ix2 d m) else zero32

/-- The left operand as the body lays it out, −2·planes, the squared norms, ones, zeros, read at `(k, n)`. -/
theorem left_operand_apply (P : FVec Ideal S3x2048 .f32) (hr : S3x2048.Reduces [0] S2048) (hφ : FKind.Formats .f32)
    (hacc : (0x00000000#32 : BitVec 32) = FKind.add.neutral .f32 hφ) (h1 : S2048.ShapeCasts S1x2048)
    (hc : Shape.Concatenates [S3x2048, S1x2048, S1x2048, S3x2048] S8x2048 0) (k : Fin 8) (n : Fin 2048) :
    concatenate S8x2048 0
        [⟨S3x2048, mulf (broadcast S3x2048 (Scalar.ofBits (F := Ideal) .f32 0xC0000000#32)) P⟩,
         ⟨S1x2048, shapeCast S1x2048 (multiReduction (F := Ideal) .add [0] S2048 (mulf P P) 0x00000000#32 hr hφ hacc) h1⟩,
         ⟨S1x2048, broadcast S1x2048 (Scalar.ofBits (F := Ideal) .f32 0x3F800000#32)⟩,
         ⟨S3x2048, broadcast S3x2048 (Scalar.ofBits (F := Ideal) .f32 0x00000000#32)⟩] hc (ix2 k n)
      = augLeft P n k := by
  unfold augLeft
  by_cases h0 : k.val < 3
  · rw [dif_pos h0]
    exact (pieces_first _ _ _ _ hc k n h0).trans rfl
  · rw [dif_neg h0]
    by_cases h3 : k.val = 3
    · rw [if_pos h3]
      refine (pieces_second _ _ _ _ hc k n h3).trans ?_
      refine (shapeCast_a_1a_apply _ h1 0 n).trans ?_
      exact sum_rows_apply (mulf P P) hr hφ hacc n
    · rw [if_neg h3]
      by_cases h4 : k.val = 4
      · rw [if_pos h4]
        exact (pieces_third _ _ _ _ hc k n h4).trans rfl
      · rw [if_neg h4]
        exact (pieces_last _ _ _ _ hc k n (by omega)).trans rfl

/-- The right operand as the body lays it out, the planes, ones, the squared norms, zeros, read at `(k, m)`. -/
theorem right_operand_apply (Q : FVec Ideal S3x2048 .f32) (hr : S3x2048.Reduces [0] S2048) (hφ : FKind.Formats .f32)
    (hacc : (0x00000000#32 : BitVec 32) = FKind.add.neutral .f32 hφ) (h1 : S2048.ShapeCasts S1x2048)
    (hc : Shape.Concatenates [S3x2048, S1x2048, S1x2048, S3x2048] S8x2048 0) (k : Fin 8) (m : Fin 2048) :
    concatenate S8x2048 0
        [⟨S3x2048, Q⟩,
         ⟨S1x2048, broadcast S1x2048 (Scalar.ofBits (F := Ideal) .f32 0x3F800000#32)⟩,
         ⟨S1x2048, shapeCast S1x2048 (multiReduction (F := Ideal) .add [0] S2048 (mulf Q Q) 0x00000000#32 hr hφ hacc) h1⟩,
         ⟨S3x2048, broadcast S3x2048 (Scalar.ofBits (F := Ideal) .f32 0x00000000#32)⟩] hc (ix2 k m)
      = augRight Q m k := by
  unfold augRight
  by_cases h0 : k.val < 3
  · rw [dif_pos h0]
    exact pieces_first _ _ _ _ hc k m h0
  · rw [dif_neg h0]
    by_cases h3 : k.val = 3
    · rw [if_pos h3]
      exact (pieces_second _ _ _ _ hc k m h3).trans rfl
    · rw [if_neg h3]
      by_cases h4 : k.val = 4
      · rw [if_pos h4]
        refine (pieces_third _ _ _ _ hc k m h4).trans ?_
        refine (shapeCast_a_1a_apply _ h1 0 m).trans ?_
        exact sum_rows_apply (mulf Q Q) hr hφ hacc m
      · rw [if_neg h4]
        exact (pieces_last _ _ _ _ hc k m (by omega)).trans rfl

/-! ## The payloads -/

/-- The distance matrix the body forms from two `[3, 2048]` plane arrays, at `(n, m)`: the contraction of the two
    augmented points. -/
theorem pay6_aug (P Q : FVec Ideal S3x2048 .f32) (n m : Fin 2048) :
    k0_pay6 P Q (ix2 n m) = ∑ k : Fin 8, augLeft P n k * augRight Q m k := by
  unfold k0_pay6
  refine (contraction_apply _ _ n m).trans (Finset.sum_congr rfl fun k _ => ?_)
  exact congrArg₂ (· * ·) (left_operand_apply P _ _ _ _ _ k n) (right_operand_apply Q _ _ _ _ _ k m)

/-- The first batch's matrix is formed from the loaded planes the same way. -/
theorem pay3_eq_pay6 (v3 v8 : Vec Ideal S3x1x2048 .f32) : k0_pay3 v3 v8 = k0_pay6 (k0_pay4 v3) (k0_pay5 v8) := rfl

/-- The planes of batch `β`, the unit axis dropped, read at `(d, n)`. -/
theorem pay4_apply (X : FVec Ideal S3x8x2048 .f32) (β : Fin 8) (v : Vec Ideal S3x1x2048 .f32)
    (h : ∀ (d : Fin 3) (n : Fin 2048), v (ix3 d 0 n) = X (ix3 d β n)) (d : Fin 3) (n : Fin 2048) :
    k0_pay4 v (ix2 d n) = X (ix3 d β n) :=
  (cast_planes_apply v _ d n).trans (h d n)
theorem pay5_apply (Y : FVec Ideal S3x8x2048 .f32) (β : Fin 8) (v : Vec Ideal S3x1x2048 .f32)
    (h : ∀ (d : Fin 3) (n : Fin 2048), v (ix3 d 0 n) = Y (ix3 d β n)) (d : Fin 3) (n : Fin 2048) :
    k0_pay5 v (ix2 d n) = Y (ix3 d β n) :=
  (cast_planes_apply v _ d n).trans (h d n)

theorem pay6_apply (X Y : FVec Ideal S3x8x2048 .f32) (β : Fin 8) (v28 v33 : Vec Ideal S3x1x2048 .f32)
    (h28 : ∀ (d : Fin 3) (n : Fin 2048), v28 (ix3 d 0 n) = X (ix3 d β n))
    (h33 : ∀ (d : Fin 3) (n : Fin 2048), v33 (ix3 d 0 n) = Y (ix3 d β n)) (n m : Fin 2048) :
    k0_pay6 (k0_pay4 v28) (k0_pay5 v33) (ix2 n m) = distKer (planesOf X) (planesOf Y) β n m := by
  rw [pay6_aug]
  unfold distKer augL augR augLeft augRight planesOf
  simp only [pay4_apply X β v28 h28, pay5_apply Y β v33 h33]

theorem pay3_apply (X Y : FVec Ideal S3x8x2048 .f32) (β : Fin 8) (v3 v8 : Vec Ideal S3x1x2048 .f32)
    (h3 : ∀ (d : Fin 3) (n : Fin 2048), v3 (ix3 d 0 n) = X (ix3 d β n))
    (h8 : ∀ (d : Fin 3) (n : Fin 2048), v8 (ix3 d 0 n) = Y (ix3 d β n)) (n m : Fin 2048) :
    k0_pay3 v3 v8 (ix2 n m) = distKer (planesOf X) (planesOf Y) β n m := by
  rw [pay3_eq_pay6]
  exact pay6_apply X Y β v3 v8 h3 h8 n m

/-- The second batch's row minima, kept as a column. -/
theorem pay8_apply (v29 v34 : FVec Ideal S3x2048 .f32) (n : Fin 2048) :
    k0_pay8 v29 v34 (ix2 n 0)
      = (Finset.univ : Finset (Fin 2048)).fold min inf32 (fun m => k0_pay6 v29 v34 (ix2 n m)) := by
  unfold k0_pay8
  exact (cast_column_apply _ _ n 0).trans (min_row_apply _ _ _ _ n)

/-- The mean of a column as the body takes it, the total splat over the one-element shape and divided by the splat of
    the number of points. -/
theorem mean_column (w : FVec Ideal S2048x1 .f32) (h1 : S2048x1.ShapeCasts S1x2048x1)
    (h2 : S1x2048x1.Reduces [1, 2] S1) (hφ : FKind.Formats .f32)
    (hacc : (0x00000000#32 : BitVec 32) = FKind.add.neutral .f32 hφ) (h3 : S1.ShapeCasts S1x1x1)
    (hpos : ∀ a, (![0, 0, 0] : Fin 3 → Nat) a < S1x1x1.size a) (i : S1x1.Idx) :
    divf (F := Ideal) (φ := .f32)
        (broadcast S1x1 (extractAt ![0, 0, 0]
          (shapeCast S1x1x1 (multiReduction (F := Ideal) .add [1, 2] S1 (shapeCast S1x2048x1 w h1) 0x00000000#32 h2 hφ hacc) h3) hpos))
        (broadcast S1x1 (Scalar.ofBits (F := Ideal) .f32 0x46800000#32)) i
      = Ideal.div (∑ n : Fin 2048, w (ix2 n (0 : Fin 1))) count32 :=
  (divf_apply _ _ i).trans
    (congrArg₂ Ideal.div ((broadcast_apply _ i).trans (total_column w h1 h2 hφ hacc h3 hpos)) ((broadcast_apply _ i).trans rfl))

/-- The mean of a row likewise. -/
theorem mean_row (w : FVec Ideal S1x2048 .f32) (h1 : S1x2048.ShapeCasts S1x1x2048)
    (h2 : S1x1x2048.Reduces [1, 2] S1) (hφ : FKind.Formats .f32)
    (hacc : (0x00000000#32 : BitVec 32) = FKind.add.neutral .f32 hφ) (h3 : S1.ShapeCasts S1x1x1)
    (hpos : ∀ a, (![0, 0, 0] : Fin 3 → Nat) a < S1x1x1.size a) (i : S1x1.Idx) :
    divf (F := Ideal) (φ := .f32)
        (broadcast S1x1 (extractAt ![0, 0, 0]
          (shapeCast S1x1x1 (multiReduction (F := Ideal) .add [1, 2] S1 (shapeCast S1x1x2048 w h1) 0x00000000#32 h2 hφ hacc) h3) hpos))
        (broadcast S1x1 (Scalar.ofBits (F := Ideal) .f32 0x46800000#32)) i
      = Ideal.div (∑ m : Fin 2048, w (ix2 (0 : Fin 1) m)) count32 :=
  (divf_apply _ _ i).trans
    (congrArg₂ Ideal.div ((broadcast_apply _ i).trans (total_row w h1 h2 hφ hacc h3 hpos)) ((broadcast_apply _ i).trans rfl))

/-- The first batch's two quotients added up from zero: clamped row minima totalled and divided, then the columns'. -/
theorem pay7_apply (M : FVec Ideal S2048x2048 .f32) :
    k0_pay7 M (ix2 0 0)
      = (zero32 + Ideal.div (∑ n : Fin 2048, max ((Finset.univ : Finset (Fin 2048)).fold min inf32 (fun m => M (ix2 n m))) zero32) count32)
        + Ideal.div (∑ m : Fin 2048, max ((Finset.univ : Finset (Fin 2048)).fold min inf32 (fun n => M (ix2 n m))) zero32) count32 := by
  unfold k0_pay7
  refine (addf_apply _ _ _).trans (congrArg₂ (· + ·)
    ((addf_apply _ _ _).trans (congrArg₂ (· + ·) ((broadcast_apply _ _).trans rfl) ?_)) ?_)
  · refine (mean_column _ _ _ _ _ _ _ _).trans (congrArg (Ideal.div · count32) (Finset.sum_congr rfl fun n _ => ?_))
    exact (maximumf_apply _ _ _).trans (congrArg₂ max
      ((cast_column_apply _ _ n 0).trans (min_row_apply M _ _ _ n)) ((broadcast_apply _ _).trans rfl))
  · refine (mean_row _ _ _ _ _ _ _ _).trans (congrArg (Ideal.div · count32) (Finset.sum_congr rfl fun m _ => ?_))
    exact (maximumf_apply _ _ _).trans (congrArg₂ max
      ((shapeCast_a_1a_apply _ _ 0 m).trans (min_col_apply M _ _ _ m)) ((broadcast_apply _ _).trans rfl))

/-- The second batch's two quotients added to what the first batch left: the row minima arrive as a column. -/
theorem pay1_apply (M : FVec Ideal S2048x2048 .f32) (v74 : FVec Ideal S1x1 .f32) (v76 : FVec Ideal S2048x1 .f32) :
    k0_pay1 M v74 v76 (ix2 0 0)
      = (v74 (ix2 0 0) + Ideal.div (∑ n : Fin 2048, max (v76 (ix2 n 0)) zero32) count32)
        + Ideal.div (∑ m : Fin 2048, max ((Finset.univ : Finset (Fin 2048)).fold min inf32 (fun n => M (ix2 n m))) zero32) count32 := by
  unfold k0_pay1
  refine (addf_apply _ _ _).trans (congrArg₂ (· + ·)
    ((addf_apply _ _ _).trans (congrArg₂ (· + ·) rfl ?_)) ?_)
  · refine (mean_column _ _ _ _ _ _ _ _).trans (congrArg (Ideal.div · count32) (Finset.sum_congr rfl fun n _ => ?_))
    exact (maximumf_apply _ _ _).trans (congrArg₂ max rfl ((broadcast_apply _ _).trans rfl))
  · refine (mean_row _ _ _ _ _ _ _ _).trans (congrArg (Ideal.div · count32) (Finset.sum_congr rfl fun m _ => ?_))
    exact (maximumf_apply _ _ _).trans (congrArg₂ max
      ((shapeCast_a_1a_apply _ _ 0 m).trans (min_col_apply M _ _ _ m)) ((broadcast_apply _ _).trans rfl))

/-- One grid point's contribution: the four quotients of its two batches, in the order row, column, row, column. -/
theorem step_apply (X Y : FVec Ideal S3x8x2048 .f32) (β0 β1 : Fin 8) (v3 v8 v28 v33 : Vec Ideal S3x1x2048 .f32)
    (h3 : ∀ (d : Fin 3) (n : Fin 2048), v3 (ix3 d 0 n) = X (ix3 d β0 n))
    (h8 : ∀ (d : Fin 3) (n : Fin 2048), v8 (ix3 d 0 n) = Y (ix3 d β0 n))
    (h28 : ∀ (d : Fin 3) (n : Fin 2048), v28 (ix3 d 0 n) = X (ix3 d β1 n))
    (h33 : ∀ (d : Fin 3) (n : Fin 2048), v33 (ix3 d 0 n) = Y (ix3 d β1 n)) :
    k0_pay1 (k0_pay6 (k0_pay4 v28) (k0_pay5 v33)) (k0_pay7 (k0_pay3 v3 v8)) (k0_pay8 (k0_pay4 v28) (k0_pay5 v33)) (ix2 0 0)
      = stepKer (distKer (planesOf X) (planesOf Y)) β0 β1 := by
  unfold stepKer rowTerm colTerm
  refine (pay1_apply _ _ _).trans (congrArg₂ (· + ·)
    (congrArg₂ (· + ·) ?_ (congrArg (Ideal.div · count32) ?_)) (congrArg (Ideal.div · count32) ?_))
  · refine (pay7_apply _).trans (congrArg₂ (· + ·)
      (congrArg (zero32 + ·) (congrArg (Ideal.div · count32) ?_)) (congrArg (Ideal.div · count32) ?_))
    · exact Finset.sum_congr rfl fun n _ => congrArg (max · zero32)
        (congrArg (Finset.fold min inf32 · (Finset.univ : Finset (Fin 2048)))
          (funext fun m => pay3_apply X Y β0 v3 v8 h3 h8 n m))
    · exact Finset.sum_congr rfl fun m _ => congrArg (max · zero32)
        (congrArg (Finset.fold min inf32 · (Finset.univ : Finset (Fin 2048)))
          (funext fun n => pay3_apply X Y β0 v3 v8 h3 h8 n m))
  · exact Finset.sum_congr rfl fun n _ => congrArg (max · zero32)
      ((pay8_apply _ _ n).trans (congrArg (Finset.fold min inf32 · (Finset.univ : Finset (Fin 2048)))
        (funext fun m => pay6_apply X Y β1 v28 v33 h28 h33 n m)))
  · exact Finset.sum_congr rfl fun m _ => congrArg (max · zero32)
      (congrArg (Finset.fold min inf32 · (Finset.univ : Finset (Fin 2048)))
        (funext fun n => pay6_apply X Y β1 v28 v33 h28 h33 n m))

end Cert.KernelIdeal.Payload

end
-- ==== Proof.KernelValue.lean ====
/-
  At the ideal values the kernel program's result is the kernel's spelling of the Chamfer loss of its two arguments.

  A grid point's share is the step of the kernel's loss at its two batches; a later point adds its share to what the
  accumulator held; each input block is the whole array of coordinate planes, the transpose of an argument, so as a
  cloud it is the argument itself; and the four shares added in order are the loss.
-/
import proofs.«101875_g19164144075462_retrytranche2_391_21_alg».proof.Proof.KernelIdealRun
import proofs.«101875_g19164144075462_retrytranche2_391_21_alg».proof.Proof.KernelPayload
import proofs.«101875_g19164144075462_retrytranche2_391_21_alg».proof.Proof.ChamferSpec

noncomputable section

namespace Cert.KernelIdeal.Body

open Idealize.ShloMosaic Idealize.ShloMosaic.TcCoe Idealize.ShloMosaic.ValueIdx Idealize.SL.Sem
open Cert.KernelIdeal Cert.KernelIdeal.Gen Cert.ChamferSpec

/-! ### What a later point leaves, and the blocks as clouds -/

/-- A later point leaves the accumulator's entry plus its share. -/
theorem accVal_apply (i : grid0.Coords) (x0 x1 : Vec Ideal S3x8x2048 .f32) (xo : Vec Ideal S1x1 .f32) :
    accVal i x0 x1 xo (ix2 0 0) = xo (ix2 0 0) + stepVal i x0 x1 (ix2 0 0) := by
  unfold accVal stepVal k0_pay2
  rw [addf_apply, shapeCast_self]

variable (m : (ℓ : Loc nD τ sig) → Buf (Elt Ideal) ℓ)

/-- The first input block, read as a cloud, is the first argument. -/
theorem planes_iblk0 (c : Dev nD) (t : Fin cfg0.N) :
    planesOf (iblk m c 0 t : S3x8x2048.Idx → Elt Ideal .f32) = cloudOf (m ((c : Thread nD τ).loc main_arg0)) := by
  rw [iblk0_eq, planes0]
  funext β n d
  exact planes_apply _ d β n

/-- The second input block, read as a cloud, is the second argument. -/
theorem planes_iblk1 (c : Dev nD) (t : Fin cfg0.N) :
    planesOf (iblk m c 1 t : S3x8x2048.Idx → Elt Ideal .f32) = cloudOf (m ((c : Thread nD τ).loc main_arg1)) := by
  rw [iblk1_eq, planes1]
  funext β n d
  exact planes_apply _ d β n

/-! ### One point's share -/

/-- The share of point t is the step of the loss at batches 2t and 2t + 1. -/
theorem stepVal_apply (t : Fin cfg0.N) (β0 β1 : Fin 8) (h0 : β0.val = 2 * t.val) (h1 : β1.val = 2 * t.val + 1)
    (x0 x1 : Vec Ideal S3x8x2048 .f32) :
    stepVal (grid0.coords t) x0 x1 (ix2 0 0) = stepKer (distKer (planesOf x0) (planesOf x1)) β0 β1 := by
  unfold stepVal
  exact Payload.step_apply x0 x1 β0 β1 (rowsOf (grid0.coords t) 0 x0) (rowsOf (grid0.coords t) 0 x1)
    (rowsOf (grid0.coords t) 1 x0) (rowsOf (grid0.coords t) 1 x1)
    (fun d n => rowsOf_apply t 0 β0 (by show β0.val = 2 * t.val + 0; omega) x0 d n)
    (fun d n => rowsOf_apply t 0 β0 (by show β0.val = 2 * t.val + 0; omega) x1 d n)
    (fun d n => rowsOf_apply t 1 β1 (by show β1.val = 2 * t.val + 1; omega) x0 d n)
    (fun d n => rowsOf_apply t 1 β1 (by show β1.val = 2 * t.val + 1; omega) x1 d n)

/-- At its own blocks, that is the step of the loss of the two arguments. -/
theorem step_at (c : Dev nD) (t : Fin cfg0.N) (β0 β1 : Fin 8) (h0 : β0.val = 2 * t.val) (h1 : β1.val = 2 * t.val + 1) :
    stepVal (grid0.coords t) (iblk m c 0 t) (iblk m c 1 t) (ix2 0 0)
      = stepKer (distKer (cloudOf (m ((c : Thread nD τ).loc main_arg0))) (cloudOf (m ((c : Thread nD τ).loc main_arg1)))) β0 β1 := by
  rw [stepVal_apply t β0 β1 h0 h1, planes_iblk0, planes_iblk1]

/-! ### The accumulator, point by point -/

theorem accAt_zero_apply (c : Dev nD) (hn : 0 < cfg0.N) :
    accAt m c 0 hn (ix2 0 0)
      = stepKer (distKer (cloudOf (m ((c : Thread nD τ).loc main_arg0))) (cloudOf (m ((c : Thread nD τ).loc main_arg1)))) 0 1 :=
  step_at m c ⟨0, hn⟩ 0 1 rfl rfl

theorem accAt_succ_apply (c : Dev nD) (n : ℕ) (hn : n + 1 < cfg0.N) (β0 β1 : Fin 8)
    (h0 : β0.val = 2 * (n + 1)) (h1 : β1.val = 2 * (n + 1) + 1) :
    accAt m c (n + 1) hn (ix2 0 0) = accAt m c n (Nat.lt_of_succ_lt hn) (ix2 0 0)
      + stepKer (distKer (cloudOf (m ((c : Thread nD τ).loc main_arg0))) (cloudOf (m ((c : Thread nD τ).loc main_arg1)))) β0 β1 := by
  show accVal (grid0.coords ⟨n + 1, hn⟩) (iblk m c 0 ⟨n + 1, hn⟩) (iblk m c 1 ⟨n + 1, hn⟩)
    (accAt m c n (Nat.lt_of_succ_lt hn)) (ix2 0 0) = _
  rw [accVal_apply, step_at m c ⟨n + 1, hn⟩ β0 β1 h0 h1]

/-- After the last point the accumulator holds the four steps added in order: the kernel's loss. -/
theorem accAt_last_eq (c : Dev nD) :
    accAt m c 3 three_lt (ix2 0 0)
      = lossKer (distKer (cloudOf (m ((c : Thread nD τ).loc main_arg0))) (cloudOf (m ((c : Thread nD τ).loc main_arg1)))) := by
  rw [accAt_succ_apply m c 2 three_lt 6 7 rfl rfl, accAt_succ_apply m c 1 _ 4 5 rfl rfl,
    accAt_succ_apply m c 0 _ 2 3 rfl rfl, accAt_zero_apply m c]
  rfl

end Cert.KernelIdeal.Body

end
-- ==== Proof.RefValue.lean ====
/-
  The reference program's result, read at its one index, is the reference spelling of the Chamfer loss.
-/
import proofs.«101875_g19164144075462_retrytranche2_391_21_alg».proof.Proof.Gen.ReferenceIdeal.Read
import proofs.«101875_g19164144075462_retrytranche2_391_21_alg».proof.Proof.ChamferSpec
import Idealize.ShloMosaic.PureOps.Ideal.Laws
import Idealize.ShloMosaic.PureOps.Reduce
import Idealize.ShloMosaic.Lib.ValueIdx
import Mathlib.Data.Finset.Fold

noncomputable section

namespace Cert.ReferenceIdeal.RefValue

open Cert.ReferenceIdeal Cert.ReferenceIdeal.Gen Cert.ReferenceIdeal.Read Idealize.ShloMosaic Idealize.ShloMosaic.ValueIdx
open Cert.ChamferSpec

/-- The argument arrays of the reference program: batch, point, axis. -/
abbrev Arr := (⟨S8x2048x3, .f32⟩ : BufTy).Contents (Elt Ideal)

/-- The squared norm of a point of the first cloud: the sum of its squared coordinates, started at zero. -/
theorem sqnormA (A : Arr) (β : Fin 8) (n : Fin 2048) :
    val_main_v1 (F := Ideal) A (ix2 β n) = zero32 + ∑ d : Fin 3, cloudOf A β n d * cloudOf A β n d := by
  have e : ∀ k : Fin 3, idx_main_v1 (ix2 β n) k = ix3 β n k := fun k =>
    funext fun a => Fin.ext (by match a with | ⟨0, _⟩ => rfl | ⟨1, _⟩ => rfl | ⟨2, _⟩ => rfl)
  rw [val_main_v1_apply]
  simp only [val_main_cst_apply, val_main_v0_apply, e]
  rfl

/-- The squared norm of a point of the second cloud. -/
theorem sqnormB (B : Arr) (β : Fin 8) (m : Fin 2048) :
    val_main_v4 (F := Ideal) B (ix2 β m) = zero32 + ∑ d : Fin 3, cloudOf B β m d * cloudOf B β m d := by
  have e : ∀ k : Fin 3, idx_main_v4 (ix2 β m) k = ix3 β m k := fun k =>
    funext fun a => Fin.ext (by match a with | ⟨0, _⟩ => rfl | ⟨1, _⟩ => rfl | ⟨2, _⟩ => rfl)
  rw [val_main_v4_apply]
  simp only [val_main_cst_0_apply, val_main_v3_apply, e]
  rfl

/-- The inner product of a point of the first cloud with a point of the second, over the three coordinates. -/
theorem inner (A B : Arr) (β : Fin 8) (n m : Fin 2048) :
    val_main_v6 (F := Ideal) A B (ix3 β n m) = ∑ d : Fin 3, cloudOf A β n d * cloudOf B β m d := by
  have el : ∀ k : Fin 3, lidx_main_v6 (ix3 β n m) k = ix3 β n k := fun k =>
    funext fun a => Fin.ext (by match a with | ⟨0, _⟩ => rfl | ⟨1, _⟩ => rfl | ⟨2, _⟩ => rfl)
  have er : ∀ k : Fin 3, ridx_main_v6 (ix3 β n m) k = ix3 β m k := fun k =>
    funext fun a => Fin.ext (by match a with | ⟨0, _⟩ => rfl | ⟨1, _⟩ => rfl | ⟨2, _⟩ => rfl)
  rw [val_main_v6_apply]
  simp only [el, er]
  rfl

/-- The clamped squared distance between point n of the first cloud and point m of the second:
    the first norm is broadcast along m, the second along n, and twice the inner product is taken off. -/
theorem clamped (A B : Arr) (β : Fin 8) (n m : Fin 2048) :
    val_main_v15 (F := Ideal) A B (ix3 β n m) = max (distRef (cloudOf A) (cloudOf B) β n m) zero32 := by
  have e8 : idx_main_v2 (idx_main_v8 (ix3 β n m)) = ix2 β n :=
    funext fun a => Fin.ext (by match a with | ⟨0, _⟩ => rfl | ⟨1, _⟩ => rfl)
  have e9 : idx_main_v5 (idx_main_v7 (idx_main_v9 (ix3 β n m))) = ix2 β m :=
    funext fun a => Fin.ext (by match a with | ⟨0, _⟩ => rfl | ⟨1, _⟩ => rfl)
  rw [val_main_v15_apply, val_main_v13_apply, val_main_v10_apply, val_main_v8_apply, val_main_v2_apply,
    val_main_v9_apply, val_main_v7_apply, val_main_v5_apply, val_main_v12_apply, val_main_v11_apply,
    val_main_v14_apply, val_main_cst_1_apply, val_main_cst_2_apply, e8, e9, sqnormA, sqnormB, inner]
  rfl

/-- The last axis is the one reduced: batch and first point kept. -/
theorem reduces_last : S8x2048x2048.Reduces [2] S8x2048 := by decide
/-- The middle axis is the one reduced: batch and second point kept. -/
theorem reduces_mid : S8x2048x2048.Reduces [1] S8x2048 := by decide

/-- For a point of the first cloud, the least clamped distance to a point of the second. -/
theorem rowMin (A B : Arr) (β : Fin 8) (n : Fin 2048) :
    val_main_v16 (F := Ideal) A B (ix2 β n)
      = (Finset.univ : Finset (Fin 2048)).fold min inf32
          (fun m => max (distRef (cloudOf A) (cloudOf B) β n m) zero32) := by
  have hl : ∀ m : Fin 2048, reduces_last.lift (ix2 β n) m = ix3 β n m := fun m =>
    funext fun a => Fin.ext (by match a with | ⟨0, _⟩ => rfl | ⟨1, _⟩ => rfl | ⟨2, _⟩ => rfl)
  refine (Host.reduce_eq_fold_single (FloatOps.minimumf (F := Ideal) (φ := .f32)) (val_main_v15 (F := Ideal) A B)
    (val_main_cst_3 (F := Ideal)) reducesTo_S8x2048x2048_S8x2048_d2 reduces_last h_S_ (ix2 β n)).trans ?_
  exact Finset.fold_congr (fun (m : Fin 2048) _ =>
    (congrArg (val_main_v15 (F := Ideal) A B) (hl m)).trans (clamped A B β n m))

/-- For a point of the second cloud, the least clamped distance to a point of the first. -/
theorem colMin (A B : Arr) (β : Fin 8) (m : Fin 2048) :
    val_main_v17 (F := Ideal) A B (ix2 β m)
      = (Finset.univ : Finset (Fin 2048)).fold min inf32
          (fun n => max (distRef (cloudOf A) (cloudOf B) β n m) zero32) := by
  have hl : ∀ n : Fin 2048, reduces_mid.lift (ix2 β m) n = ix3 β n m := fun n =>
    funext fun a => Fin.ext (by match a with | ⟨0, _⟩ => rfl | ⟨1, _⟩ => rfl | ⟨2, _⟩ => rfl)
  refine (Host.reduce_eq_fold_single (FloatOps.minimumf (F := Ideal) (φ := .f32)) (val_main_v15 (F := Ideal) A B)
    (val_main_cst_4 (F := Ideal)) reducesTo_S8x2048x2048_S8x2048_d1 reduces_mid h_S_ (ix2 β m)).trans ?_
  exact Finset.fold_congr (fun (n : Fin 2048) _ =>
    (congrArg (val_main_v15 (F := Ideal) A B) (hl n)).trans (clamped A B β n m))

/-- The total of the row minima over every batch and every point of the first cloud, started at zero. -/
theorem rowTotal (A B : Arr) (i : S_.Idx) :
    val_main_v18 (F := Ideal) A B i
      = zero32 + ∑ β : Fin 8, ∑ n : Fin 2048, (Finset.univ : Finset (Fin 2048)).fold min inf32
          (fun m => max (distRef (cloudOf A) (cloudOf B) β n m) zero32) := by
  rw [val_main_v18_apply, val_main_cst_5_apply]
  refine congrArg (_ + ·) ((sum_idx2 (n0 := 8) (n1 := 2048) _).trans ?_)
  exact Finset.sum_congr rfl fun β _ => Finset.sum_congr rfl fun n _ => rowMin A B β n

/-- The total of the column minima over every batch and every point of the second cloud, started at zero. -/
theorem colTotal (A B : Arr) (i : S_.Idx) :
    val_main_v20 (F := Ideal) A B i
      = zero32 + ∑ β : Fin 8, ∑ m : Fin 2048, (Finset.univ : Finset (Fin 2048)).fold min inf32
          (fun n => max (distRef (cloudOf A) (cloudOf B) β n m) zero32) := by
  rw [val_main_v20_apply, val_main_cst_7_apply]
  refine congrArg (_ + ·) ((sum_idx2 (n0 := 8) (n1 := 2048) _).trans ?_)
  exact Finset.sum_congr rfl fun β _ => Finset.sum_congr rfl fun m _ => colMin A B β m

/-- The reference program's result is the reference spelling of the loss: each total divided by the number
    of points, the two quotients added. -/
theorem val_main_v22_eq_lossRef (A B : (⟨Cert.ReferenceIdeal.S8x2048x3, .f32⟩ : BufTy).Contents (Elt Ideal)) :
    Cert.ReferenceIdeal.Read.val_main_v22 (F := Ideal) A B = fun _ => lossRef (distRef (cloudOf A) (cloudOf B)) := by
  funext i
  rw [val_main_v22_apply, val_main_v19_apply, val_main_v21_apply, rowTotal, colTotal,
    val_main_cst_6_apply, val_main_cst_8_apply]
  rfl

end Cert.ReferenceIdeal.RefValue

end
-- ==== Proof.ChamferConsts.lean ====
/-
  The constants of both programs as the numbers their single-precision patterns denote: 0, 1, 2, −2, +∞ and
  16384 = 8 · 2048, the number of points of a batch of clouds.
-/
import proofs.«101875_g19164144075462_retrytranche2_391_21_alg».proof.Proof.ChamferSpec
import Idealize.ShloMosaic.PureOps.Ideal

noncomputable section

namespace Cert.ChamferSpec

open Idealize.ShloMosaic

theorem zero32_eq : zero32 = 0 := by
  simp [zero32, Ideal.ofBits, Ideal.ieee]

theorem one32_eq : one32 = ((1 : ℝ) : EReal) := by
  simp [one32, Ideal.ofBits, Ideal.ieee, -EReal.coe_mul]; norm_num

theorem two32_eq : two32 = ((2 : ℝ) : EReal) := by
  simp [two32, Ideal.ofBits, Ideal.ieee, -EReal.coe_mul]; norm_num

theorem negTwo32_eq : negTwo32 = ((-2 : ℝ) : EReal) := by
  simp [negTwo32, Ideal.ofBits, Ideal.ieee, -EReal.coe_mul]; norm_num

theorem inf32_eq : inf32 = ⊤ := by
  simp [inf32, Ideal.ofBits, Ideal.ieee]

theorem count32_eq : count32 = ((16384 : ℝ) : EReal) := by
  simp [count32, Ideal.ofBits, Ideal.ieee, -EReal.coe_mul]; norm_num

end Cert.ChamferSpec

end
-- ==== Proof.FiniteInputs.lean ====
/-
  The precondition says that every entry of both clouds is a real number.
-/
import proofs.«101875_g19164144075462_retrytranche2_391_21_alg».proof.Proof.Gen.Pre_finite_inputs
import proofs.«101875_g19164144075462_retrytranche2_391_21_alg».proof.Proof.ChamferConsts
import Idealize.ShloMosaic.PureOps.Ideal.Laws
import Idealize.ShloMosaic.Lib.ValueIdx
import Idealize.ShloMosaic.Lib.ReduceAll

noncomputable section

namespace Cert.Pre_finite_inputs.Finite

open Cert.Pre_finite_inputs Idealize.ShloMosaic Idealize.ShloMosaic.ValueIdx

/-- The scalar shape has one index. -/
instance : Subsingleton S_.Idx := ⟨fun _ _ => funext fun d => d.elim0⟩

/-- The single-precision pattern with every exponent bit set and no fraction bit is +∞. -/
theorem inf_pattern : Ideal.ofBits .f32 0x7F800000#32 = (⊤ : EReal) := Cert.ChamferSpec.inf32_eq

/-- An extended real whose absolute value max x (−x) lies strictly below +∞ is a real number:
    at −∞ and at +∞ the absolute value is +∞ itself. -/
theorem real_of_abs_lt (x : EReal)
    (h : Ideal.cmp .olt (max x (-x)) (Ideal.ofBits .f32 0x7F800000#32) = 1#1) : ∃ r : ℝ, x = (r : EReal) := by
  rw [inf_pattern] at h
  induction x using EReal.rec with
  | bot => simp [Ideal.cmp] at h
  | coe r => exact ⟨r, rfl⟩
  | top => simp [Ideal.cmp] at h

/-- Under the precondition every entry of both arrays is a real number. -/
theorem real_of_pre (A B : FVec Ideal Cert.Pre_finite_inputs.S8x2048x3 .f32)
    (h : Cert.Pre_finite_inputs.fn (F := Ideal) A B = fun _ => 1#1) :
    (∀ i, ∃ r : ℝ, A i = (r : EReal)) ∧ (∀ i, ∃ r : ℝ, B i = (r : EReal)) := by
  have h0 := congrFun h ix0
  dsimp only [fn] at h0
  obtain ⟨hA, hB⟩ := IntOp.andi_eq_one.1 h0
  refine ⟨fun i => real_of_abs_lt (A i) ?_, fun i => real_of_abs_lt (B i) ?_⟩
  · exact Host.reduce_andi_all _ _ _ _ _ hA i
  · exact Host.reduce_andi_all _ _ _ _ _ hB i

end Cert.Pre_finite_inputs.Finite

end
-- ==== Proof.ChamferAlgebra.lean ====
/-
  On finite clouds the two spellings of the Chamfer loss are one number.

  Every coordinate is a real, so every squared distance is a real, in either spelling the same one; clamping at
  zero commutes with a minimum; a minimum over a nonempty finite set of reals is a real; and for reals the mean of
  a total is the total of the means, in whatever order the quotients are added.
-/
import proofs.«101875_g19164144075462_retrytranche2_391_21_alg».proof.Proof.ChamferSpec
import proofs.«101875_g19164144075462_retrytranche2_391_21_alg».proof.Proof.ChamferConsts
import Idealize.ShloMosaic.PureOps.Ideal
import Mathlib.Data.EReal.Operations
import Mathlib.Data.Finset.Fold
import Mathlib.Algebra.BigOperators.Fin
import Mathlib.Order.MinMax
import Mathlib.Tactic.Ring
import Mathlib.Tactic.NormNum

noncomputable section

namespace Cert.ChamferSpec

open Idealize.ShloMosaic

/-! ### The squared distance, in both spellings, is one real -/

/-- The squared distance of two real points, |a|² + |b|² − 2 a·b. -/
def distReal (ra rb : Fin 8 → Fin 2048 → Fin 3 → ℝ) (β : Fin 8) (n m : Fin 2048) : ℝ :=
  ((ra β n 0 * ra β n 0 + ra β n 1 * ra β n 1 + ra β n 2 * ra β n 2)
    + (rb β m 0 * rb β m 0 + rb β m 1 * rb β m 1 + rb β m 2 * rb β m 2))
    - 2 * (ra β n 0 * rb β m 0 + ra β n 1 * rb β m 1 + ra β n 2 * rb β m 2)

theorem distRef_coe {a b : Cloud} {ra rb : Fin 8 → Fin 2048 → Fin 3 → ℝ}
    (ha : ∀ β n d, a β n d = (ra β n d : EReal)) (hb : ∀ β n d, b β n d = (rb β n d : EReal))
    (β : Fin 8) (n m : Fin 2048) : distRef a b β n m = (distReal ra rb β n m : EReal) := by
  simp only [distRef, distReal, zero32_eq, two32_eq, Fin.sum_univ_three, ha, hb, zero_add]
  simp only [← EReal.coe_mul, ← EReal.coe_add, ← EReal.coe_sub]

/-- The augmented points at each of the eight places. -/
theorem augL_vals (a : Cloud) (β : Fin 8) (n : Fin 2048) :
    augL a β n 0 = negTwo32 * a β n 0 ∧ augL a β n 1 = negTwo32 * a β n 1 ∧ augL a β n 2 = negTwo32 * a β n 2
      ∧ augL a β n 3 = ∑ d : Fin 3, a β n d * a β n d ∧ augL a β n 4 = one32
      ∧ augL a β n 5 = zero32 ∧ augL a β n 6 = zero32 ∧ augL a β n 7 = zero32 := by
  refine ⟨?_, ?_, ?_, ?_, ?_, ?_, ?_, ?_⟩ <;> simp [augL] <;> rfl

theorem augR_vals (b : Cloud) (β : Fin 8) (m : Fin 2048) :
    augR b β m 0 = b β m 0 ∧ augR b β m 1 = b β m 1 ∧ augR b β m 2 = b β m 2
      ∧ augR b β m 3 = one32 ∧ augR b β m 4 = ∑ d : Fin 3, b β m d * b β m d
      ∧ augR b β m 5 = zero32 ∧ augR b β m 6 = zero32 ∧ augR b β m 7 = zero32 := by
  refine ⟨?_, ?_, ?_, ?_, ?_, ?_, ?_, ?_⟩ <;> simp [augR] <;> rfl

theorem distKer_coe {a b : Cloud} {ra rb : Fin 8 → Fin 2048 → Fin 3 → ℝ}
    (ha : ∀ β n d, a β n d = (ra β n d : EReal)) (hb : ∀ β n d, b β n d = (rb β n d : EReal))
    (β : Fin 8) (n m : Fin 2048) : distKer a b β n m = (distReal ra rb β n m : EReal) := by
  obtain ⟨l0, l1, l2, l3, l4, l5, l6, l7⟩ := augL_vals a β n
  obtain ⟨r0, r1, r2, r3, r4, r5, r6, r7⟩ := augR_vals b β m
  simp only [distKer, Fin.sum_univ_eight, l0, l1, l2, l3, l4, l5, l6, l7, r0, r1, r2, r3, r4, r5, r6, r7,
    zero32_eq, one32_eq, negTwo32_eq, Fin.sum_univ_three, ha, hb, mul_zero, add_zero]
  simp only [← EReal.coe_mul, ← EReal.coe_add]
  congr 1
  simp only [distReal]
  ring

/-! ### Clamping commutes with a minimum, and a minimum of reals is a real -/

theorem coe_min' (x y : ℝ) : ((min x y : ℝ) : EReal) = min (x : EReal) (y : EReal) :=
  EReal.coe_strictMono.monotone.map_min

theorem coe_max' (x y : ℝ) : ((max x y : ℝ) : EReal) = max (x : EReal) (y : EReal) :=
  EReal.coe_strictMono.monotone.map_max

/-- The clamp of a minimum is the minimum of the clamps (the minimum of nothing is +∞ on both sides). -/
theorem clamp_fold_min {ι : Type} (s : Finset ι) (f : ι → EReal) :
    max (s.fold min inf32 f) zero32 = s.fold min inf32 (fun i => max (f i) zero32) := by
  classical
  rw [inf32_eq, zero32_eq]
  induction s using Finset.induction_on with
  | empty => simp
  | insert i s hi ih => rw [Finset.fold_insert hi, Finset.fold_insert hi, max_min_distrib_right, ih]

/-- A minimum from +∞ over a nonempty finite set of reals is a real. -/
theorem fold_min_real {ι : Type} (s : Finset ι) (hs : s.Nonempty) (f : ι → EReal)
    (hf : ∀ i, ∃ r : ℝ, f i = (r : EReal)) : ∃ r : ℝ, s.fold min inf32 f = (r : EReal) := by
  rw [inf32_eq]
  induction hs using Finset.Nonempty.cons_induction with
  | singleton i =>
    obtain ⟨r, hr⟩ := hf i
    exact ⟨r, by rw [Finset.fold_singleton, hr, min_eq_left le_top]⟩
  | cons i s hi hs ih =>
    obtain ⟨r, hr⟩ := hf i
    obtain ⟨r', hr'⟩ := ih
    exact ⟨min r r', by rw [Finset.fold_cons, hr, hr', coe_min']⟩

/-- A finite sum of reals is a real. -/
theorem sum_real {ι : Type} (s : Finset ι) (f : ι → EReal)
    (hf : ∀ i, ∃ r : ℝ, f i = (r : EReal)) : ∃ r : ℝ, ∑ i ∈ s, f i = (r : EReal) := by
  classical
  induction s using Finset.induction_on with
  | empty => exact ⟨0, by simp⟩
  | insert i s hi ih =>
    obtain ⟨r, hr⟩ := hf i
    obtain ⟨r', hr'⟩ := ih
    exact ⟨r + r', by rw [Finset.sum_insert hi, hr, hr', EReal.coe_add]⟩

/-- The clamp of a real is a real. -/
theorem clamp_real {x : EReal} (hx : ∃ r : ℝ, x = (r : EReal)) : ∃ r : ℝ, max x zero32 = (r : EReal) := by
  obtain ⟨r, rfl⟩ := hx
  exact ⟨max r 0, by rw [zero32_eq, coe_max', EReal.coe_zero]⟩

/-! ### The loss of a matrix of real distances -/

theorem rowTerm_real (D : Dist) (hD : ∀ β n m, ∃ r : ℝ, D β n m = (r : EReal)) (β : Fin 8) :
    ∃ r : ℝ, rowTerm D β = (r : EReal) :=
  sum_real _ _ fun n => clamp_real (fold_min_real _ Finset.univ_nonempty _ fun m => hD β n m)

theorem colTerm_real (D : Dist) (hD : ∀ β n m, ∃ r : ℝ, D β n m = (r : EReal)) (β : Fin 8) :
    ∃ r : ℝ, colTerm D β = (r : EReal) :=
  sum_real _ _ fun m => clamp_real (fold_min_real _ Finset.univ_nonempty _ fun n => hD β n m)

/-- Clamp-then-minimise is minimise-then-clamp: the reference's two grand totals are the totals of the batches'
    row and column terms. -/
theorem lossRef_eq (D : Dist) :
    lossRef D = Ideal.div (zero32 + ∑ β : Fin 8, rowTerm D β) count32
      + Ideal.div (zero32 + ∑ β : Fin 8, colTerm D β) count32 := by
  simp only [lossRef, rowTerm, colTerm, clamp_fold_min]

theorem div_count (x : ℝ) : Ideal.div (x : EReal) count32 = ((x / 16384 : ℝ) : EReal) := by
  rw [count32_eq, Ideal.div_coe (by norm_num), ← EReal.coe_mul]
  congr 1
  ring

theorem lossKer_eq_lossRef (D : Dist) (hD : ∀ β n m, ∃ r : ℝ, D β n m = (r : EReal)) :
    lossKer D = lossRef D := by
  choose R hR using rowTerm_real D hD
  choose C hC using colTerm_real D hD
  simp only [lossRef_eq, lossKer, stepKer, Fin.sum_univ_eight, hR, hC, zero32_eq, zero_add]
  simp only [← EReal.coe_add, div_count]
  congr 1
  ring

/-! ### The two programs' losses -/

theorem lossKer_distKer_eq_lossRef_distRef (a b : Cloud)
    (ha : ∀ β n d, ∃ r : ℝ, a β n d = (r : EReal)) (hb : ∀ β n d, ∃ r : ℝ, b β n d = (r : EReal)) :
    lossKer (distKer a b) = lossRef (distRef a b) := by
  choose ra hra using ha
  choose rb hrb using hb
  have hD : distKer a b = distRef a b := by
    funext β n m
    rw [distKer_coe hra hrb, distRef_coe hra hrb]
  rw [hD]
  exact lossKer_eq_lossRef _ fun β n m => ⟨_, distRef_coe hra hrb β n m⟩

end Cert.ChamferSpec

end
-- ==== Proof.lean ====
/-
  The certificate of the fused Chamfer-loss kernel against its jnp reference, over the extended reals.

  The kernel transposes the two clouds to coordinate planes, and in one region of four grid points forms, for two
  batches per point, each batch's matrix of squared distances as one contraction of length eight of augmented points
  (−2a, |a|², 1, 0, 0, 0)·(b, 1, |b|², 0, 0, 0) = |a|² + |b|² − 2a·b, takes row and column minima, clamps them at zero,
  totals them, divides by the number of points and accumulates the quotients in a 1×1 buffer written back after the last
  point. The reference forms the distances term by term, clamps every one, takes the minima and the two grand means.
  Clamping commutes with a minimum in a linear order, and on finite inputs every quantity is a real number, where the
  two orders of summation and of division agree.

  The frames of the two kernel programs are the body's two runs (store at the first point, add at the later ones)
  under the pipeline's launch (Proof/KernelBody.lean, Proof/KernelIdealBody.lean: one text at two readings of the
  floats); the reference's is its run. The ideal pass rewrote nothing, so the preservation claim is trivial.
-/
import proofs.«101875_g19164144075462_retrytranche2_391_21_alg».proof.Defs
import proofs.«101875_g19164144075462_retrytranche2_391_21_alg».proof.Proof.Gen.Kernel
import proofs.«101875_g19164144075462_retrytranche2_391_21_alg».proof.Proof.Gen.KernelIdeal
import proofs.«101875_g19164144075462_retrytranche2_391_21_alg».proof.Proof.Gen.ReferenceIdeal
import proofs.«101875_g19164144075462_retrytranche2_391_21_alg».proof.Proof.Gen.Pre_finite_inputs
import proofs.«101875_g19164144075462_retrytranche2_391_21_alg».proof.Proof.KernelBody
import proofs.«101875_g19164144075462_retrytranche2_391_21_alg».proof.Proof.KernelValue
import proofs.«101875_g19164144075462_retrytranche2_391_21_alg».proof.Proof.RefValue
import proofs.«101875_g19164144075462_retrytranche2_391_21_alg».proof.Proof.FiniteInputs
import proofs.«101875_g19164144075462_retrytranche2_391_21_alg».proof.Proof.ChamferAlgebra
import Idealize.ShloMosaic.Adequacy
import Idealize.ShloMosaic.Init

noncomputable section

namespace Cert.Proof

open Idealize.ShloMosaic Idealize.ShloMosaic.TcCoe Idealize.SL.Sem Cert.ChamferSpec

/-- The word-level kernel runs and leaves its two arguments as launched. -/
theorem frame_kernel : Cert.frame_Kernel := fun m ρ _ => Cert.Kernel.Body.frame m ρ

/-- So does the kernel read at the ideal values: the same body, the same accumulator. -/
theorem frame_kernelIdeal : Cert.frame_KernelIdeal := fun m ρ _ => Cert.KernelIdeal.Body.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end at the Chamfer loss of the two clouds: the kernel at its own spelling (one contraction of
    augmented points per distance, minima clamped after they are taken, four quotients per pair of batches added up
    over the four grid points), the reference at the textbook one; on finite clouds the two spellings are one real
    number. -/
theorem algebraic : Cert.algebraic_KernelIdeal_ReferenceIdeal := by
  intro m ρ m' ρ' hpre hagree
  refine ⟨fun c _ => lossKer (distKer (cloudOf (m ((c.tc : Thread Cert.KernelIdeal.nD Cert.KernelIdeal.τ).loc Cert.KernelIdeal.main_arg0)))
      (cloudOf (m ((c.tc : Thread Cert.KernelIdeal.nD Cert.KernelIdeal.τ).loc Cert.KernelIdeal.main_arg1)))), ?_, ?_⟩
  · refine (θ_run Cert.KernelIdeal.defs _ _).mono (fun _ h c => ⟨(h c).1.trans ?_, (h c).2⟩)
      (Cert.KernelIdeal.Body.run_value m ρ)
    exact funext fun _ => Cert.KernelIdeal.Body.accAt_last_eq m c
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v22_eq, Cert.ReferenceIdeal.RefValue.val_main_v22_eq_lossRef, (hagree c).1, (hagree c).2]
    obtain ⟨ha, hb⟩ := Cert.Pre_finite_inputs.Finite.real_of_pre _ _ (hpre c)
    exact funext fun _ => (lossKer_distKer_eq_lossRef_distRef _ _ (fun β n d => ha _) (fun β n d => hb _)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
